-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x3x256 : Shape := ⟨3, ![100000, 3, 256]⟩
abbrev S256 : Shape := ⟨1, ![256]⟩
abbrev S256x256 : Shape := ⟨2, ![256, 256]⟩
abbrev S512x256 : Shape := ⟨2, ![512, 256]⟩
abbrev S256x768 : Shape := ⟨2, ![256, 768]⟩
abbrev S768 : Shape := ⟨1, ![768]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x3x256 : S_.BroadcastsInDim S100000x3x256 (![] : Fin 0 → Fin S100000x3x256.rank)
  reducesTo_S100000x3x256_S_d0_1_2 : S100000x3x256.ReducesTo [0, 1, 2] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S256 .f32) (main_arg8 : FVec F S256x768 .f32) (main_arg9 : FVec F S768 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x768 .f32 := Host.absf main_arg8
  let main_cst_14 : FVec F S_ .f32 := constant S_ .f32 0x7F800000#32
  let main_v40 : FVec F S256x768 .f32 := broadcastInDim S256x768 ![] bcast_S_S256x768 main_cst_14
  let main_v41 : IVec S256x768 1 := cmpf .olt main_v39 main_v40
  let main_c_15 : IVec S_ 1 := constantI S_ 1 1#1
  let main_v42 : IVec S_ 1 := (fun x v => Host.reduce IntOp.andi x v reducesTo_S256x768_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  main_v48

def fn_part1 {F : FTy → Type} [FloatOps F] (main_arg4 : FVec F S256x256 .f32) (main_arg5 : FVec F S256x256 .f32) (main_arg6 : FVec F S512x256 .f32) (main_arg7 : FVec F S256 .f32) (main_arg8 : FVec F S256x768 .f32) (main_arg9 : FVec F S768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x256 .f32) (main_arg1 : FVec F S100000x3x256 .f32) (main_arg2 : FVec F S256 .f32) (main_arg3 : FVec F S256 .f32) (main_arg4 : FVec F S256x256 .f32) (main_arg5 : FVec F S256x256 .f32) (main_arg6 : FVec F S512x256 .f32) (main_arg7 : FVec F S256 .f32) (main_arg8 : FVec F S256x768 .f32) (main_arg9 : FVec F S768 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x3x256 .f32 := Host.absf main_arg1
  let main_cst_0 : FVec F S_ .f32 := constant S_ .f32 0x7F800000#32
  let main_v5 : FVec F S100000x3x256 .f32 := broadcastInDim S100000x3x256 ![] bcast_S_S100000x3x256 main_cst_0
  let main_v6 : IVec S100000x3x256 1 := cmpf .olt main_v4 main_v5
  let main_c_1 : IVec S_ 1 := constantI S_ 1 1#1
  let main_v7 : IVec S_ 1 := (fun x v => Host.reduce IntOp.andi x v reducesTo_S100000x3x256_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S100000x256 : Shape := ⟨2, ![100000, 256]⟩
abbrev S100000x3x256 : Shape := ⟨3, ![100000, 3, 256]⟩
abbrev S256 : Shape := ⟨1, ![256]⟩
abbrev S256x256 : Shape := ⟨2, ![256, 256]⟩
abbrev S512x256 : Shape := ⟨2, ![512, 256]⟩
abbrev S256x768 : Shape := ⟨2, ![256, 768]⟩
abbrev S768 : Shape := ⟨1, ![768]⟩
abbrev S1000x256 : Shape := ⟨2, ![1000, 256]⟩
abbrev S1000x3x256 : Shape := ⟨3, ![1000, 3, 256]⟩
abbrev S3000x256 : Shape := ⟨2, ![3000, 256]⟩
abbrev S1000 : Shape := ⟨1, ![1000]⟩
abbrev S1000x1 : Shape := ⟨2, ![1000, 1]⟩
abbrev S1x256 : Shape := ⟨2, ![1, 256]⟩
abbrev S1000x512 : Shape := ⟨2, ![1000, 512]⟩
abbrev S1000x768 : Shape := ⟨2, ![1000, 768]⟩
abbrev S1x768 : Shape := ⟨2, ![1, 768]⟩
abbrev S1000x1x256 : Shape := ⟨3, ![1000, 1, 256]⟩

abbrev nBuf : Space → Nat
  | .hbm => 16
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S100000x3x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S512x256, .f32⟩
  | .hbm, ⟨7, _⟩ => ⟨S256, .f32⟩
  | .hbm, ⟨8, _⟩ => ⟨S256x768, .f32⟩
  | .hbm, ⟨9, _⟩ => ⟨S768, .f32⟩
  | .hbm, ⟨10, _⟩ => ⟨S256x256, .bf16⟩
  | .hbm, ⟨11, _⟩ => ⟨S256x256, .bf16⟩
  | .hbm, ⟨12, _⟩ => ⟨S512x256, .bf16⟩
  | .hbm, ⟨13, _⟩ => ⟨S256x768, .bf16⟩
  | .hbm, ⟨14, _⟩ => ⟨S100000x256, .f32⟩
  | .hbm, ⟨15, _⟩ => ⟨S100000x3x256, .f32⟩
  | .local _ .vmem, ⟨0, _⟩ => ⟨S1000x256, .f32⟩
  | .local _ .vmem, ⟨1, _⟩ => ⟨S1000x256, .f32⟩
  | .local _ .vmem, ⟨2, _⟩ => ⟨S1000x3x256, .f32⟩
  | .local _ .vmem, ⟨3, _⟩ => ⟨S1000x3x256, .f32⟩
  | .local _ .vmem, ⟨4, _⟩ => ⟨S256, .f32⟩
  | .local _ .vmem, ⟨5, _⟩ => ⟨S256, .f32⟩
  | .local _ .vmem, ⟨6, _⟩ => ⟨S256x256, .bf16⟩
  | .local _ .vmem, ⟨7, _⟩ => ⟨S256x256, .bf16⟩
  | .local _ .vmem, ⟨8, _⟩ => ⟨S512x256, .bf16⟩
  | .local _ .vmem, ⟨9, _⟩ => ⟨S256, .f32⟩
  | .local _ .vmem, ⟨10, _⟩ => ⟨S256x768, .bf16⟩
  | .local _ .vmem, ⟨11, _⟩ => ⟨S768, .f32⟩
  | .local _ .vmem, ⟨12, _⟩ => ⟨S1000x256, .f32⟩
  | .local _ .vmem, ⟨13, _⟩ => ⟨S1000x256, .f32⟩
  | .local _ .vmem, ⟨14, _⟩ => ⟨S1000x3x256, .f32⟩
  | .local _ .vmem, ⟨15, _⟩ => ⟨S1000x3x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1000x3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  inb_S1000x3x256_S1000x3x256_0_0_0 : ∀ a, (![0, 0, 0] : Fin 3 → Nat) a + S1000x3x256.size a ≤ S1000x3x256.size a
  h_S1000x3x256 : 0 < S1000x3x256.numel
  shapeCasts_S1000x3x256_S3000x256 : S1000x3x256.ShapeCasts S3000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S3000x256_S1000x3x256 : S3000x256.ShapeCasts S1000x3x256
  reduces_S1000x3x256_S1000x256 : S1000x3x256.Reduces [1] S1000x256
  reduces_S1000x256_S1000 : S1000x256.Reduces [1] S1000
  shapeCasts_S1000_S1000x1 : S1000.ShapeCasts S1000x1
  broadcasts_S1000x1_S1000x256 : S1000x1.Broadcasts S1000x256
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  concatenates_S1000x256_S1000x256_S1000x512_d1 : Shape.Concatenates [S1000x256, S1000x256] S1000x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768_S768_0 : ∀ a, (![0] : Fin 1 → Nat) a + S768.size a ≤ S768.size a
  h_S768 : 0 < S768.numel
  shapeCasts_S768_S1x768 : S768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  shapeCasts_S1000x256_S1000x1x256 : S1000x256.ShapeCasts S1000x1x256
  broadcasts_S1000x1x256_S1000x3x256 : S1000x1x256.Broadcasts S1000x3x256
  dot_S3000x256_S256x256_S3000x256_1_0_0_1_n_n_wf : DotDims.WF S3000x256 S256x256 S3000x256 [1] [0] [0] [1] [] []
  dot_S1000x512_S512x256_S1000x256_1_0_0_1_n_n_wf : DotDims.WF S1000x512 S512x256 S1000x256 [1] [0] [0] [1] [] []
  dot_S1000x256_S256x768_S1000x768_1_0_0_1_n_n_wf : DotDims.WF S1000x256 S256x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x3x256.size a ≤ S100000x3x256.size a
  hwx0_1 : ∀ i : grid0.Coords, EltTy.bits .f32 = 32 ∨ (Rect.block (s := S100000x3x256) S1000x3x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .bf16 = 32 ∨ (Rect.block (s := S512x256) S512x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x768.size a ≤ S256x768.size a
  hwx0_8 : ∀ i : grid0.Coords, EltTy.bits .bf16 = 32 ∨ (Rect.block (s := S256x768) S256x768.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S768.size a ≤ S768.size a
  hwx0_9 : ∀ i : grid0.Coords, EltTy.bits .f32 = 32 ∨ (Rect.block (s := S768) S768.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x256.size a ≤ S100000x256.size a
  hwx0_10 : ∀ i : grid0.Coords, EltTy.bits .f32 = 32 ∨ (Rect.block (s := S100000x256) S1000x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x3x256.size a ≤ S100000x3x256.size a
  hwx0_11 : ∀ i : grid0.Coords, EltTy.bits .f32 = 32 ∨ (Rect.block (s := S100000x3x256) S1000x3x256.size (cc0_transform_11 i) (hinb0_11 i)).WholeWords (EltTy.packing .f32)

variable [Facts₀]

def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S1000x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S1000x3x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x256 : Shape := ⟨2, ![100000, 256]⟩
abbrev S100000x3x256 : Shape := ⟨3, ![100000, 3, 256]⟩
abbrev S256 : Shape := ⟨1, ![256]⟩
abbrev S256x256 : Shape := ⟨2, ![256, 256]⟩
abbrev S512x256 : Shape := ⟨2, ![512, 256]⟩
abbrev S256x768 : Shape := ⟨2, ![256, 768]⟩
abbrev S768 : Shape := ⟨1, ![768]⟩
abbrev S_ : Shape := ⟨0, ![]⟩
abbrev S100000 : Shape := ⟨1, ![100000]⟩
abbrev S100000x1 : Shape := ⟨2, ![100000, 1]⟩
abbrev S1x256 : Shape := ⟨2, ![1, 256]⟩
abbrev S100000x512 : Shape := ⟨2, ![100000, 512]⟩
abbrev S100000x768 : Shape := ⟨2, ![100000, 768]⟩
abbrev S1x768 : Shape := ⟨2, ![1, 768]⟩
abbrev S100000x1x256 : Shape := ⟨3, ![100000, 1, 256]⟩

abbrev nBuf : Space → Nat
  | .hbm => 79
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x3x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S512x256, .f32⟩
  | .hbm, ⟨7, _⟩ => ⟨S256, .f32⟩
  | .hbm, ⟨8, _⟩ => ⟨S256x768, .f32⟩
  | .hbm, ⟨9, _⟩ => ⟨S768, .f32⟩
  | .hbm, ⟨10, _⟩ => ⟨S100000x3x256, .f32⟩
  | .hbm, ⟨11, _⟩ => ⟨S100000x3x256, .f32⟩
  | .hbm, ⟨12, _⟩ => ⟨S100000x3x256, .f32⟩
  | .hbm, ⟨13, _⟩ => ⟨S_, .f32⟩
  | .hbm, ⟨14, _⟩ => ⟨S100000x256, .f32⟩
  | .hbm, ⟨15, _⟩ => ⟨S_, .f32⟩
  | .hbm, ⟨16, _⟩ => ⟨S100000x256, .f32⟩
  | .hbm, ⟨17, _⟩ => ⟨S100000x256, .f32⟩
  | .hbm, ⟨18, _⟩ => ⟨S100000x256, .f32⟩
  | .hbm, ⟨19, _⟩ => ⟨S_, .f32⟩
  | .hbm, ⟨20, _⟩ => ⟨S100000, .f32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S100000x256, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x256, .f32⟩
  | .hbm, ⟨35, _⟩ => ⟨S100000x256, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x1, .f32⟩
  | .hbm, ⟨40, _⟩ => ⟨S100000x256, .f32⟩
  | .hbm, ⟨41, _⟩ => ⟨S100000x256, .f32⟩
  | .hbm, ⟨42, _⟩ => ⟨S1x256, .f32⟩
  | .hbm, ⟨43, _⟩ => ⟨S100000x256, .f32⟩
  | .hbm, ⟨44, _⟩ => ⟨S100000x256, .f32⟩
  | .hbm, ⟨45, _⟩ => ⟨S1x256, .f32⟩
  | .hbm, ⟨46, _⟩ => ⟨S100000x256, .f32⟩
  | .hbm, ⟨47, _⟩ => ⟨S100000x256, .f32⟩
  | .hbm, ⟨48, _⟩ => ⟨S100000x512, .f32⟩
  | .hbm, ⟨49, _⟩ => ⟨S100000x256, .f32⟩
  | .hbm, ⟨50, _⟩ => ⟨S1x256, .f32⟩
  | .hbm, ⟨51, _⟩ => ⟨S100000x256, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S_, .f32⟩
  | .hbm, ⟨56, _⟩ => ⟨S100000x256, .f32⟩
  | .hbm, ⟨57, _⟩ => ⟨S100000x256, .f32⟩
  | .hbm, ⟨58, _⟩ => ⟨S_, .f32⟩
  | .hbm, ⟨59, _⟩ => ⟨S100000x256, .f32⟩
  | .hbm, ⟨60, _⟩ => ⟨S100000x256, .f32⟩
  | .hbm, ⟨61, _⟩ => ⟨S100000x256, .f32⟩
  | .hbm, ⟨62, _⟩ => ⟨S100000x768, .f32⟩
  | .hbm, ⟨63, _⟩ => ⟨S1x768, .f32⟩
  | .hbm, ⟨64, _⟩ => ⟨S100000x768, .f32⟩
  | .hbm, ⟨65, _⟩ => ⟨S100000x768, .f32⟩
  | .hbm, ⟨66, _⟩ => ⟨S100000x256, .f32⟩
  | .hbm, ⟨67, _⟩ => ⟨S100000x256, .f32⟩
  | .hbm, ⟨68, _⟩ => ⟨S100000x256, .f32⟩
  | .hbm, ⟨69, _⟩ => ⟨S100000x3x256, .f32⟩
  | .hbm, ⟨70, _⟩ => ⟨S_, .f32⟩
  | .hbm, ⟨71, _⟩ => ⟨S100000x256, .f32⟩
  | .hbm, ⟨72, _⟩ => ⟨S100000x256, .f32⟩
  | .hbm, ⟨73, _⟩ => ⟨S100000x256, .f32⟩
  | .hbm, ⟨74, _⟩ => ⟨S100000x256, .f32⟩
  | .hbm, ⟨75, _⟩ => ⟨S100000x1x256, .f32⟩
  | .hbm, ⟨76, _⟩ => ⟨S100000x3x256, .f32⟩
  | .hbm, ⟨77, _⟩ => ⟨S100000x3x256, .f32⟩
  | .hbm, ⟨78, _⟩ => ⟨S100000x3x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]

class Facts₀ : Prop where
  reducesTo_S100000x3x256_S100000x256_d1 : S100000x3x256.ReducesTo [1] S100000x256
  h_S_ : 0 < S_.numel
  bcast_S_S100000x256 : S_.BroadcastsInDim S100000x256 (![] : Fin 0 → Fin S100000x256.rank)
  reducesTo_S100000x256_S100000_d1 : S100000x256.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  concatenates_S100000x256_S100000x256_S100000x512_d1 : Shape.Concatenates [S100000x256, S100000x256] S100000x512 1
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  slices_S100000x768_S100000x256_0_0 : S100000x768.Slices ![0, 0] S100000x256
  slices_S100000x768_S100000x256_0_256 : S100000x768.Slices ![0, 256] S100000x256
  slices_S100000x768_S100000x256_0_512 : S100000x768.Slices ![0, 512] S100000x256
  bcast_S100000x256_S100000x1x256_0_2 : S100000x256.BroadcastsInDim S100000x1x256 (![0, 2] : Fin 2 → Fin S100000x1x256.rank)
  bcast_S100000x1x256_S100000x3x256_0_1_2 : S100000x1x256.BroadcastsInDim S100000x3x256 (![0, 1, 2] : Fin 3 → Fin S100000x3x256.rank)
  dot_S100000x3x256_S256x256_S100000x3x256_2_0_01_1_n_n_wf : DotDims.WF S100000x3x256 S256x256 S100000x3x256 [2] [0] [0, 1] [1] [] []
  dot_S100000x512_S512x256_S100000x256_1_0_0_1_n_n_wf : DotDims.WF S100000x512 S512x256 S100000x256 [1] [0] [0] [1] [] []
  dot_S100000x256_S256x768_S100000x768_1_0_0_1_n_n_wf : DotDims.WF S100000x256 S256x768 S100000x768 [1] [0] [0] [1] [] []

variable [Facts₀]

def dot_S100000x3x256_S256x256_S100000x3x256_2_0_01_1_n_n : DotDims S100000x3x256 S256x256 S100000x3x256 where
  lhsContracting := [2]
  rhsContracting := [0]
  lhsNonContracting := [0, 1]
  rhsNonContracting := [1]
  lhsBatch := []
  rhsBatch := []
  wf := dot_S100000x3x256_S256x256_S100000x3x256_2_0_01_1_n_n_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x768_S100000x768_1_0_0_1_n_n : DotDims S100000x256 S256x768 S100000x768 where
  lhsContracting := [1]
  rhsContracting := [0]
  lhsNonContracting := [0]
  rhsNonContracting := [1]
  lhsBatch := []
  rhsBatch := []
  wf := dot_S100000x256_S256x768_S100000x768_1_0_0_1_n_n_wf

class Facts : Prop extends Facts₀ where

variable [Facts]
-- ==== Proof.Spec.lean ====
/-
  The mathematics both programs compute, one atom (row) at a time, on the extended reals.

  For one atom with scalar features `s : 256`, vector features `v : 3 × 256`, and the layer's parameters:
    * `proj v W d k = Σ_h v[d,h] · W[h,k]`                       the vector features through an H × H linear map;
    * `vnorm k = sqrt (Σ_d (proj v V d k)² + ε₁)`                  the norm over the three spatial components;
    * `mean`, `var` the row's mean and (biased) variance, both sums divided by 256;
    * `normed j = (s[j] − mean) · rsqrt (var + ε₂) · γ[j] + β[j]`   the layer norm;
    * `ctxIn`     the 512 inputs of the first dense layer: the 256 normed scalars, then the 256 norms;
    * `hidden k = Σ_j ctxIn[j] · W1[j,k] + b1[k]`, `act = hidden · logistic hidden` (SiLU);
    * `ctx q = Σ_k act[k] · W2[k,q] + b2[q]`, 768 wide: three gates of 256;
    * `sOut k = (s[k] + ctx[k]) + ctx[256 + k] · Σ_d (proj v U d k)(proj v V d k)`;
    * `vOut d k = v[d,k] + ctx[512 + k] · proj v U d k`.
  The three float literals are kept as the words both programs print (ε₁ = 0x322BCC77, 256 = 0x43800000,
  ε₂ = 0x3727C5AC): the same word on both sides is never evaluated.
  `Gs` and `Gv` are the two result arrays as whole-array functions of the ten argument arrays.
-/
import Idealize.ShloMosaic.PureOps.Ideal
import Idealize.ShloMosaic.Lib.ValueIdx

noncomputable section

open scoped BigOperators

namespace Cert.Spec

open Idealize.ShloMosaic Idealize.ShloMosaic.ValueIdx

section Row

variable (s : Fin 256 → EReal) (v : Fin 3 → Fin 256 → EReal) (γ β : Fin 256 → EReal)
  (U V : Fin 256 → Fin 256 → EReal) (W1 : Fin 512 → Fin 256 → EReal) (b1 : Fin 256 → EReal)
  (W2 : Fin 256 → Fin 768 → EReal) (b2 : Fin 768 → EReal)

/-- The vector features through a linear map: component `d`, output feature `k`. -/
def proj (W : Fin 256 → Fin 256 → EReal) (d : Fin 3) (k : Fin 256) : EReal := ∑ h : Fin 256, v d h * W h k

/-- The norm of the projected vector over its three spatial components, with the additive ε₁ under the root. -/
def vnorm (k : Fin 256) : EReal :=
  Ideal.sqrt ((∑ d : Fin 3, proj v V d k * proj v V d k) + (Ideal.ofBits .f32 0x322BCC77#32 : EReal))

/-- The row's mean. -/
def mean : EReal := Ideal.div (∑ j : Fin 256, s j) (Ideal.ofBits .f32 0x43800000#32 : EReal)

/-- The row's biased variance. -/
def var : EReal :=
  Ideal.div (∑ j : Fin 256, (s j - mean s) * (s j - mean s)) (Ideal.ofBits .f32 0x43800000#32 : EReal)

/-- The layer norm of the row at feature `j`. -/
def normed (j : Fin 256) : EReal :=
  (s j - mean s) * Ideal.rsqrt (var s + (Ideal.ofBits .f32 0x3727C5AC#32 : EReal)) * γ j + β j

/-- The first dense layer's 512 inputs: the normed scalars, then the vector norms. -/
def ctxIn (j : Fin 512) : EReal :=
  if h : j.val < 256 then normed s γ β ⟨j.val, h⟩ else vnorm v V ⟨j.val - 256, by have := j.isLt; omega⟩

/-- The first dense layer before its activation. -/
def hidden (k : Fin 256) : EReal := (∑ j : Fin 512, ctxIn s v γ β V j * W1 j k) + b1 k

/-- SiLU of the first dense layer. -/
def act (k : Fin 256) : EReal := hidden s v γ β V W1 b1 k * Ideal.logistic (hidden s v γ β V W1 b1 k)

/-- The second dense layer: 768 wide, three gates of 256. -/
def ctx (q : Fin 768) : EReal := (∑ k : Fin 256, act s v γ β V W1 b1 k * W2 k q) + b2 q

/-- The inner product of the two projections over the three spatial components. -/
def dotuv (k : Fin 256) : EReal := ∑ d : Fin 3, proj v U d k * proj v V d k

/-- The updated scalar features. -/
def sOut (k : Fin 256) : EReal :=
  (s k + ctx s v γ β V W1 b1 W2 b2 ⟨k.val, by have := k.isLt; omega⟩)
    + ctx s v γ β V W1 b1 W2 b2 ⟨k.val + 256, by have := k.isLt; omega⟩ * dotuv v U V k

/-- The updated vector features. -/
def vOut (d : Fin 3) (k : Fin 256) : EReal :=
  v d k + ctx s v γ β V W1 b1 W2 b2 ⟨k.val + 512, by have := k.isLt; omega⟩ * proj v U d k

end Row

/-! ## The two result arrays as functions of the ten argument arrays -/

section Arrays

variable (a0 : (⟨2, ![100000, 256]⟩ : Shape).Idx → EReal) (a1 : (⟨3, ![100000, 3, 256]⟩ : Shape).Idx → EReal)
  (a2 a3 : (⟨1, ![256]⟩ : Shape).Idx → EReal) (a4 a5 : (⟨2, ![256, 256]⟩ : Shape).Idx → EReal)
  (a6 : (⟨2, ![512, 256]⟩ : Shape).Idx → EReal) (a7 : (⟨1, ![256]⟩ : Shape).Idx → EReal)
  (a8 : (⟨2, ![256, 768]⟩ : Shape).Idx → EReal) (a9 : (⟨1, ![768]⟩ : Shape).Idx → EReal)

/-- The updated scalar features of every atom. -/
def Gs : (⟨2, ![100000, 256]⟩ : Shape).Idx → EReal := fun i =>
  sOut (fun j => a0 (ix2 (i 0) j)) (fun d h => a1 (ix3 (i 0) d h)) (fun j => a2 (ix1 j)) (fun j => a3 (ix1 j))
    (fun h k => a4 (ix2 h k)) (fun h k => a5 (ix2 h k)) (fun j k => a6 (ix2 j k)) (fun k => a7 (ix1 k))
    (fun k q => a8 (ix2 k q)) (fun q => a9 (ix1 q)) (i 1)

/-- The updated vector features of every atom. -/
def Gv : (⟨3, ![100000, 3, 256]⟩ : Shape).Idx → EReal := fun i =>
  vOut (fun j => a0 (ix2 (i 0) j)) (fun d h => a1 (ix3 (i 0) d h)) (fun j => a2 (ix1 j)) (fun j => a3 (ix1 j))
    (fun h k => a4 (ix2 h k)) (fun h k => a5 (ix2 h k)) (fun j k => a6 (ix2 j k)) (fun k => a7 (ix1 k))
    (fun k q => a8 (ix2 k q)) (fun q => a9 (ix1 q)) (i 1) (i 2)

end Arrays

end Cert.Spec

end
-- ==== Proof.KerPieces.lean ====
/-
  The first half of the kernel body, read at one entry of a 1000-atom block (extended reals): the two projections of the
  vector features, the norm over the three spatial components, and the layer norm before its bias.
-/
import proofs.«180721_j88897233093049_1_alg».proof.Proof.Spec
import proofs.«180721_j88897233093049_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerPieces

open Idealize.ShloMosaic Idealize.ShloMosaic.ValueIdx Cert.KernelIdeal Cert.KernelIdeal.Gen

/-! ## The vector features laid out three rows per atom -/

/-- Row `3n + d` of the 3000-row layout of a 1000 × 3 block. -/
private abbrev row3 (n : Fin 1000) (d : Fin 3) : Fin 3000 := ⟨3 * n.val + d.val, by have := n.isLt; have := d.isLt; omega⟩

/-- The 3000 × 256 operand of the matrix unit at row `3n + d`, column `h`, is the block's entry `(n, d, h)`: the
    cast keeps the row-major position and the narrowing of the format is the identity on extended reals. -/
private theorem pay4_apply (x1 : Vec Ideal S1000x3x256 .f32) (n : Fin 1000) (d : Fin 3) (h : Fin 256) :
    k0_pay4 x1 (ix2 (row3 n d) h) = x1 (ix3 n d h) := by
  unfold k0_pay4
  show shapeCast S3000x256 x1 _ (ix2 (row3 n d) h) = x1 (ix3 n d h)
  refine shapeCast_apply x1 _ _ (ix3 n d h) ?_
  rw [Shape.rowMajor_val_three, Shape.rowMajor_val_two]
  show (n.val * 3 + d.val) * 256 + h.val = (3 * n.val + d.val) * 256 + h.val
  omega

/-- Back from the 3000-row layout: entry `(n, d, k)` of the cast is row `3n + d`, column `k`. -/
private theorem unrow_apply (y : FVec Ideal S3000x256 .f32) (hc : S3000x256.ShapeCasts S1000x3x256)
    (n : Fin 1000) (d : Fin 3) (k : Fin 256) :
    shapeCast S1000x3x256 y hc (ix3 n d k) = y (ix2 (row3 n d) k) := by
  refine shapeCast_apply y hc _ (ix2 (row3 n d) k) ?_
  rw [Shape.rowMajor_val_three, Shape.rowMajor_val_two]
  show (3 * n.val + d.val) * 256 + k.val = (n.val * 3 + d.val) * 256 + k.val
  omega

/-! ## The 3000 × 256 by 256 × 256 product at an entry -/

private theorem lhs_mm_0 (i : S3000x256.Idx) (q : dot_S3000x256_S256x256_S3000x256_1_0_0_1_n_n.contr.Idx) :
    (dot_S3000x256_S256x256_S3000x256_1_0_0_1_n_n.lhsIdx i q 0).val = (i 0).val := by
  unfold DotDims.lhsIdx
  rw [dif_neg (show ¬(0 : Fin S3000x256.rank) ∈ dot_S3000x256_S256x256_S3000x256_1_0_0_1_n_n.lhsBatch by decide), dif_pos (show (0 : Fin S3000x256.rank) ∈ dot_S3000x256_S256x256_S3000x256_1_0_0_1_n_n.lhsNonContracting by decide)]
  rfl
private theorem lhs_mm_1 (i : S3000x256.Idx) (q : dot_S3000x256_S256x256_S3000x256_1_0_0_1_n_n.contr.Idx) :
    (dot_S3000x256_S256x256_S3000x256_1_0_0_1_n_n.lhsIdx i q 1).val = (q ⟨0, by decide⟩).val :=
  dot_S3000x256_S256x256_S3000x256_1_0_0_1_n_n.lhsIdx_val_of_single rfl i q
private theorem rhs_mm_0 (i : S3000x256.Idx) (q : dot_S3000x256_S256x256_S3000x256_1_0_0_1_n_n.contr.Idx) :
    (dot_S3000x256_S256x256_S3000x256_1_0_0_1_n_n.rhsIdx i q 0).val = (q ⟨0, by decide⟩).val :=
  dot_S3000x256_S256x256_S3000x256_1_0_0_1_n_n.rhsIdx_val_of_single rfl i q
private theorem rhs_mm_1 (i : S3000x256.Idx) (q : dot_S3000x256_S256x256_S3000x256_1_0_0_1_n_n.contr.Idx) :
    (dot_S3000x256_S256x256_S3000x256_1_0_0_1_n_n.rhsIdx i q 1).val = (i 1).val := by
  unfold DotDims.rhsIdx
  rw [dif_neg (show ¬(1 : Fin S256x256.rank) ∈ dot_S3000x256_S256x256_S3000x256_1_0_0_1_n_n.rhsBatch by decide), dif_pos (show (1 : Fin S256x256.rank) ∈ dot_S3000x256_S256x256_S3000x256_1_0_0_1_n_n.rhsNonContracting by decide)]
  rfl

/-- The product into the zero accumulator at row `r`, column `k`: the sum over the 256 contracted lanes. -/
private theorem mm_apply (a : FVec Ideal S3000x256 .bf16) (b : FVec Ideal S256x256 .bf16) (r : Fin 3000) (k : Fin 256) :
    matmul dot_S3000x256_S256x256_S3000x256_1_0_0_1_n_n none a b (constant (F := Ideal) S3000x256 .f32 0x00000000#32) (ix2 r k)
      = ∑ h : Fin 256, a (ix2 r h) * b (ix2 h k) := by
  simp only [matmul]
  rw [Ideal.matmul_constant_zero_apply, ← Equiv.sum_comp (ValueIdx.contrEquiv1 dot_S3000x256_S256x256_S3000x256_1_0_0_1_n_n 256 rfl rfl).symm]
  refine Finset.sum_congr rfl fun h _ => ?_
  have hk := ValueIdx.contrEquiv1_symm_val dot_S3000x256_S256x256_S3000x256_1_0_0_1_n_n 256 rfl rfl h
  have el : dot_S3000x256_S256x256_S3000x256_1_0_0_1_n_n.lhsIdx (ix2 r k) ((ValueIdx.contrEquiv1 dot_S3000x256_S256x256_S3000x256_1_0_0_1_n_n 256 rfl rfl).symm h) = ix2 r h := funext fun a => Fin.ext (by
    match a with
    | ⟨0, _⟩ => exact lhs_mm_0 _ _
    | ⟨1, _⟩ => exact (lhs_mm_1 _ _).trans hk)
  have er : dot_S3000x256_S256x256_S3000x256_1_0_0_1_n_n.rhsIdx (ix2 r k) ((ValueIdx.contrEquiv1 dot_S3000x256_S256x256_S3000x256_1_0_0_1_n_n 256 rfl rfl).symm h) = ix2 h k := funext fun a => Fin.ext (by
    match a with
    | ⟨0, _⟩ => exact (rhs_mm_0 _ _).trans hk
    | ⟨1, _⟩ => exact rhs_mm_1 _ _)
  rw [el, er]

/-- The projection through the first weight block, at atom `n`, component `d`, feature `k`: the block's rows are laid
    out 3 per atom for the matrix unit and back, so row `3n + d` of the product is entry `(n, d)`. -/
theorem pay5_apply (x1 : Vec Ideal S1000x3x256 .f32) (w : Vec Ideal S256x256 .bf16) (n : Fin 1000) (d : Fin 3) (k : Fin 256) :
    k0_pay5 x1 w (ix3 n d k) = Cert.Spec.proj (fun d h => x1 (ix3 n d h)) (fun h k => w (ix2 h k)) d k := by
  unfold k0_pay5
  refine (unrow_apply _ _ n d k).trans ?_
  refine (mm_apply _ _ (row3 n d) k).trans ?_
  unfold Cert.Spec.proj
  refine Finset.sum_congr rfl fun h _ => ?_
  rw [pay4_apply, shapeCast_self]

/-- The same for the second weight block. -/
theorem pay6_apply (x1 : Vec Ideal S1000x3x256 .f32) (w : Vec Ideal S256x256 .bf16) (n : Fin 1000) (d : Fin 3) (k : Fin 256) :
    k0_pay6 x1 w (ix3 n d k) = Cert.Spec.proj (fun d h => x1 (ix3 n d h)) (fun h k => w (ix2 h k)) d k := by
  unfold k0_pay6
  refine (unrow_apply _ _ n d k).trans ?_
  refine (mm_apply _ _ (row3 n d) k).trans ?_
  unfold Cert.Spec.proj
  refine Finset.sum_congr rfl fun h _ => ?_
  rw [pay4_apply, shapeCast_self]

/-! ## The norm over the three spatial components -/

/-- A sum over the middle axis of a 1000 × 3 × 256 block at atom `n`, feature `k`: the three components' entries. -/
private theorem sum3_apply (v : FVec Ideal S1000x3x256 .f32) (hr : S1000x3x256.Reduces [1] S1000x256) (hφ : FKind.Formats .f32)
    (hacc : (0x00000000#32 : BitVec 32) = FKind.add.neutral .f32 hφ) (n : Fin 1000) (k : Fin 256) :
    multiReduction (F := Ideal) .add [1] S1000x256 v 0x00000000#32 hr hφ hacc (ix2 n k) = ∑ d : Fin 3, v (ix3 n d k) := by
  refine (Ideal.multiReduction_add_single v 0x00000000#32 hr hφ hacc (ix2 n k)).trans ?_
  show ∑ d : Fin 3, v (hr.lift (ix2 n k) d) = _
  refine Finset.sum_congr rfl fun d _ => ?_
  exact congrArg v (funext fun a => Fin.ext (by match a with | ⟨0, _⟩ => rfl | ⟨1, _⟩ => rfl | ⟨2, _⟩ => rfl))

/-- The norm over the three spatial components at atom `n`, feature `k`. -/
theorem pay7_apply (x1 : Vec Ideal S1000x3x256 .f32) (w : Vec Ideal S256x256 .bf16) (n : Fin 1000) (k : Fin 256) :
    k0_pay7 x1 w (ix2 n k) = Cert.Spec.vnorm (fun d h => x1 (ix3 n d h)) (fun h k => w (ix2 h k)) k := by
  unfold k0_pay7 Cert.Spec.vnorm
  show Ideal.sqrt (_ + Ideal.ofBits .f32 0x322BCC77#32) = Ideal.sqrt (_ + Ideal.ofBits .f32 0x322BCC77#32)
  refine congrArg (fun t => Ideal.sqrt (t + Ideal.ofBits .f32 0x322BCC77#32)) ?_
  refine (sum3_apply _ _ _ _ n k).trans ?_
  refine Finset.sum_congr rfl fun d _ => ?_
  show k0_pay6 x1 w (ix3 n d k) * k0_pay6 x1 w (ix3 n d k) = _
  rw [pay6_apply]

/-! ## The layer norm before its bias -/

/-- A sum over the lanes of a 1000 × 256 block at atom `n`. -/
private theorem rowsum_apply (v : FVec Ideal S1000x256 .f32) (hr : S1000x256.Reduces [1] S1000) (hφ : FKind.Formats .f32)
    (hacc : (0x00000000#32 : BitVec 32) = FKind.add.neutral .f32 hφ) (n : Fin 1000) :
    multiReduction (F := Ideal) .add [1] S1000 v 0x00000000#32 hr hφ hacc (ix1 n) = ∑ j : Fin 256, v (ix2 n j) := by
  refine (Ideal.multiReduction_add_single v 0x00000000#32 hr hφ hacc (ix1 n)).trans ?_
  show ∑ j : Fin 256, v (hr.lift (ix1 n) j) = _
  refine Finset.sum_congr rfl fun j _ => ?_
  exact congrArg v (funext fun a => Fin.ext (by match a with | ⟨0, _⟩ => rfl | ⟨1, _⟩ => rfl))

/-- A length-1000 vector cast to a 1000 × 1 column reads, at `(n, u)`, the vector at `n`. -/
private theorem col_cast_apply {α : Type} (y : S1000.Idx → α) (hc : S1000.ShapeCasts S1000x1) (n : Fin 1000) (u : Fin 1) :
    shapeCast S1000x1 y hc (ix2 n u) = y (ix1 n) := by
  refine shapeCast_apply y hc _ (ix1 n) ?_
  have hu : u.val = 0 := by omega
  rw [Shape.rowMajor_val_two, Shape.rowMajor_val_one]
  show n.val = n.val * 1 + u.val
  omega

/-- A 1000 × 1 column broadcast over 256 lanes reads, at `(n, j)`, the column at `n`. -/
private theorem col_bcast_apply {α : Type} (c : S1000x1.Idx → α) (hb : S1000x1.Broadcasts S1000x256) (n : Fin 1000) (j : Fin 256) :
    broadcastTo S1000x256 c hb (ix2 n j) = c (ix2 n (0 : Fin 1)) := by
  refine broadcastTo_apply c hb (ix2 n j) (ix2 n (0 : Fin 1)) fun ax => ?_
  match ax with
  | ⟨0, _⟩ => rfl
  | ⟨1, _⟩ => rfl

/-- The gain, a length-256 vector made a row and broadcast over the atoms, reads at `(n, j)` the gain at `j`. -/
private theorem gain_apply {α : Type} (g : S256.Idx → α) (hc : S256.ShapeCasts S1x256) (hb : S1x256.Broadcasts S1000x256)
    (n : Fin 1000) (j : Fin 256) : broadcastTo S1000x256 (shapeCast S1x256 g hc) hb (ix2 n j) = g (ix1 j) :=
  (broadcastTo_1b_ab_apply _ hb n j).trans (shapeCast_a_1a_apply g hc 0 j)

/-- The column of row means. -/
private def meanCol (x0 : Vec Ideal S1000x256 .f32) : FVec Ideal S1000x1 .f32 :=
  divf (shapeCast S1000x1 (multiReduction (F := Ideal) .add [1] S1000 x0 0x00000000#32 reduces_S1000x256_S1000 (.inl rfl) rfl) shapeCasts_S1000_S1000x1)
    (broadcast S1000x1 (Scalar.ofBits .f32 0x43800000#32 : Ideal .f32))

private theorem meanCol_apply (x0 : Vec Ideal S1000x256 .f32) (n : Fin 1000) (u : Fin 1) :
    meanCol x0 (ix2 n u) = Cert.Spec.mean (fun j => x0 (ix2 n j)) := by
  unfold meanCol Cert.Spec.mean
  show Ideal.div (shapeCast S1000x1 _ _ (ix2 n u)) (Ideal.ofBits .f32 0x43800000#32) = _
  rw [col_cast_apply]
  exact congrArg (fun t => Ideal.div t (Ideal.ofBits .f32 0x43800000#32)) (rowsum_apply x0 _ _ _ n)

/-- The block with each row's mean taken off. -/
private def centred (x0 : Vec Ideal S1000x256 .f32) : FVec Ideal S1000x256 .f32 :=
  subf x0 (broadcastTo S1000x256 (meanCol x0) broadcasts_S1000x1_S1000x256)

private theorem centred_apply (x0 : Vec Ideal S1000x256 .f32) (n : Fin 1000) (j : Fin 256) :
    centred x0 (ix2 n j) = x0 (ix2 n j) - Cert.Spec.mean (fun j => x0 (ix2 n j)) := by
  unfold centred
  show x0 (ix2 n j) - broadcastTo S1000x256 (meanCol x0) _ (ix2 n j) = _
  rw [col_bcast_apply, meanCol_apply]

/-- The column of row variances. -/
private def varCol (x0 : Vec Ideal S1000x256 .f32) : FVec Ideal S1000x1 .f32 :=
  divf (shapeCast S1000x1 (multiReduction (F := Ideal) .add [1] S1000 (mulf (centred x0) (centred x0)) 0x00000000#32 reduces_S1000x256_S1000 (.inl rfl) rfl) shapeCasts_S1000_S1000x1)
    (broadcast S1000x1 (Scalar.ofBits .f32 0x43800000#32 : Ideal .f32))

private theorem varCol_apply (x0 : Vec Ideal S1000x256 .f32) (n : Fin 1000) (u : Fin 1) :
    varCol x0 (ix2 n u) = Cert.Spec.var (fun j => x0 (ix2 n j)) := by
  unfold varCol Cert.Spec.var
  show Ideal.div (shapeCast S1000x1 _ _ (ix2 n u)) (Ideal.ofBits .f32 0x43800000#32) = _
  rw [col_cast_apply]
  refine congrArg (fun t => Ideal.div t (Ideal.ofBits .f32 0x43800000#32)) ?_
  refine (rowsum_apply _ _ _ _ n).trans ?_
  refine Finset.sum_congr rfl fun j _ => ?_
  show centred x0 (ix2 n j) * centred x0 (ix2 n j) = _
  rw [centred_apply]

/-- The payload as the centred block times the broadcast reciprocal root times the broadcast gain. -/
private theorem pay8_eq (x0 : Vec Ideal S1000x256 .f32) (g : Vec Ideal S256 .f32) :
    k0_pay8 x0 g
      = mulf (mulf (centred x0)
          (broadcastTo S1000x256 (rsqrt (addf (varCol x0) (broadcast S1000x1 (Scalar.ofBits .f32 0x3727C5AC#32 : Ideal .f32))))
            broadcasts_S1000x1_S1000x256))
          (broadcastTo S1000x256 (shapeCast S1x256 g shapeCasts_S256_S1x256) broadcasts_S1x256_S1000x256) := rfl

/-- The layer norm before its bias at atom `n`, feature `j`: centred, scaled by the reciprocal root of the variance
    plus ε₂, times the gain. -/
theorem pay8_apply (x0 : Vec Ideal S1000x256 .f32) (g : Vec Ideal S256 .f32) (n : Fin 1000) (j : Fin 256) :
    k0_pay8 x0 g (ix2 n j)
      = (x0 (ix2 n j) - Cert.Spec.mean (fun j => x0 (ix2 n j)))
          * Ideal.rsqrt (Cert.Spec.var (fun j => x0 (ix2 n j)) + (Ideal.ofBits .f32 0x3727C5AC#32 : EReal)) * g (ix1 j) := by
  rw [pay8_eq]
  show centred x0 (ix2 n j)
      * broadcastTo S1000x256 (rsqrt (addf (varCol x0) (broadcast S1000x1 (Scalar.ofBits .f32 0x3727C5AC#32 : Ideal .f32)))) _ (ix2 n j)
      * broadcastTo S1000x256 (shapeCast S1x256 g _) _ (ix2 n j) = _
  rw [col_bcast_apply, gain_apply, centred_apply]
  show _ * Ideal.rsqrt (varCol x0 (ix2 n (0 : Fin 1)) + Ideal.ofBits .f32 0x3727C5AC#32) * _ = _
  rw [varCol_apply]

end Cert.KerPieces

end
-- ==== Proof.KerDense.lean ====
/-
  The two dense layers of the kernel body, read at one entry of a 1000-atom block (extended reals), over ARBITRARY
  inputs `nrm` (the layer norm before its bias) and `vn` (the vector norms): bias, join, first layer, SiLU, second layer.
-/
import proofs.«180721_j88897233093049_1_alg».proof.Proof.Spec
import proofs.«180721_j88897233093049_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerDense

open Idealize.ShloMosaic Idealize.ShloMosaic.ValueIdx Cert.KernelIdeal Cert.KernelIdeal.Gen

/-- The first dense layer's input at atom `n`: the biased layer norm on the first 256 places, the vector norms after. -/
def joined (vn nrm : FVec Ideal S1000x256 .f32) (bias : Vec Ideal S256 .f32) (n : Fin 1000) (j : Fin 512) : EReal :=
  if h : j.val < 256 then nrm (ix2 n ⟨j.val, h⟩) + bias (ix1 ⟨j.val, h⟩)
  else vn (ix2 n ⟨j.val - 256, by have := j.isLt; omega⟩)

/-- The first dense layer before its activation at atom `n`, unit `k`. -/
def hid (vn nrm : FVec Ideal S1000x256 .f32) (bias : Vec Ideal S256 .f32) (w1 : Vec Ideal S512x256 .bf16)
    (c1 : Vec Ideal S256 .f32) (n : Fin 1000) (k : Fin 256) : EReal :=
  (∑ j : Fin 512, joined vn nrm bias n j * w1 (ix2 j k)) + c1 (ix1 k)

/-! ### Layout: a bias row over the block, and the join of two blocks along the columns -/

/-- A 256-vector cast to one row and broadcast over the 1000 rows reads, at `(n, k)`, the vector at `k`. -/
private theorem row256_apply (c : Vec Ideal S256 .f32) (h1 : S256.ShapeCasts S1x256) (h2 : S1x256.Broadcasts S1000x256)
    (n : Fin 1000) (k : Fin 256) : broadcastTo S1000x256 (shapeCast S1x256 c h1) h2 (ix2 n k) = c (ix1 k) :=
  (broadcastTo_1b_ab_apply _ h2 n k).trans (shapeCast_a_1a_apply c h1 0 k)

/-- A 768-vector cast to one row and broadcast over the 1000 rows reads, at `(n, q)`, the vector at `q`. -/
private theorem row768_apply (c : Vec Ideal S768 .f32) (h1 : S768.ShapeCasts S1x768) (h2 : S1x768.Broadcasts S1000x768)
    (n : Fin 1000) (q : Fin 768) : broadcastTo S1000x768 (shapeCast S1x768 c h1) h2 (ix2 n q) = c (ix1 q) :=
  (broadcastTo_1b_ab_apply _ h2 n q).trans (shapeCast_a_1a_apply c h1 0 q)

/-- Two [1000,256] blocks joined along the columns: left of column 256 the first block, from there on the second at
    the column less 256. -/
private theorem concat_apply (a b : FVec Ideal S1000x256 .f32) (h : Shape.Concatenates [S1000x256, S1000x256] S1000x512 1)
    (n : Fin 1000) (j : Fin 512) :
    concatenate S1000x512 1 [⟨S1000x256, a⟩, ⟨S1000x256, b⟩] h (ix2 n j)
      = if hj : j.val < 256 then a (ix2 n ⟨j.val, hj⟩) else b (ix2 n ⟨j.val - 256, by have := j.isLt; omega⟩) := by
  by_cases hj : j.val < 256
  · rw [dif_pos hj]
    exact concatenate_pair_apply_left 1 a b h (ix2 n j) rfl (ix2 n ⟨j.val, hj⟩) (fun c => match c with
      | ⟨0, _⟩ => rfl
      | ⟨1, _⟩ => rfl)
  · rw [dif_neg hj]
    exact concatenate_pair_apply_right 1 a b h (ix2 n j) rfl rfl (ix2 n ⟨j.val - 256, by have := j.isLt; omega⟩)
      (fun c hc => match c, hc with
        | ⟨0, _⟩, _ => rfl
        | ⟨1, _⟩, hc => absurd rfl hc)
      (by show (j.val - 256) + 256 = j.val; omega)

/-! ### The two matrix products: where the product's index maps send an output entry and a contraction coordinate -/

private theorem lhsA_0 (i : S1000x256.Idx) (q : dot_S1000x512_S512x256_S1000x256_1_0_0_1_n_n.contr.Idx) :
    (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
private theorem lhsA_1 (i : S1000x256.Idx) (q : dot_S1000x512_S512x256_S1000x256_1_0_0_1_n_n.contr.Idx) :
    (dot_S1000x512_S512x256_S1000x256_1_0_0_1_n_n.lhsIdx i q 1).val = (q ⟨0, by decide⟩).val :=
  dot_S1000x512_S512x256_S1000x256_1_0_0_1_n_n.lhsIdx_val_of_single rfl i q
private theorem rhsA_0 (i : S1000x256.Idx) (q : dot_S1000x512_S512x256_S1000x256_1_0_0_1_n_n.contr.Idx) :
    (dot_S1000x512_S512x256_S1000x256_1_0_0_1_n_n.rhsIdx i q 0).val = (q ⟨0, by decide⟩).val :=
  dot_S1000x512_S512x256_S1000x256_1_0_0_1_n_n.rhsIdx_val_of_single rfl i q
private theorem rhsA_1 (i : S1000x256.Idx) (q : dot_S1000x512_S512x256_S1000x256_1_0_0_1_n_n.contr.Idx) :
    (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

private theorem lhsB_0 (i : S1000x768.Idx) (q : dot_S1000x256_S256x768_S1000x768_1_0_0_1_n_n.contr.Idx) :
    (dot_S1000x256_S256x768_S1000x768_1_0_0_1_n_n.lhsIdx i q 0).val = (i 0).val := by
  unfold DotDims.lhsIdx
  rw [dif_neg (show ¬(0 : Fin S1000x256.rank) ∈ dot_S1000x256_S256x768_S1000x768_1_0_0_1_n_n.lhsBatch by decide), dif_pos (show (0 : Fin S1000x256.rank) ∈ dot_S1000x256_S256x768_S1000x768_1_0_0_1_n_n.lhsNonContracting by decide)]
  rfl
private theorem lhsB_1 (i : S1000x768.Idx) (q : dot_S1000x256_S256x768_S1000x768_1_0_0_1_n_n.contr.Idx) :
    (dot_S1000x256_S256x768_S1000x768_1_0_0_1_n_n.lhsIdx i q 1).val = (q ⟨0, by decide⟩).val :=
  dot_S1000x256_S256x768_S1000x768_1_0_0_1_n_n.lhsIdx_val_of_single rfl i q
private theorem rhsB_0 (i : S1000x768.Idx) (q : dot_S1000x256_S256x768_S1000x768_1_0_0_1_n_n.contr.Idx) :
    (dot_S1000x256_S256x768_S1000x768_1_0_0_1_n_n.rhsIdx i q 0).val = (q ⟨0, by decide⟩).val :=
  dot_S1000x256_S256x768_S1000x768_1_0_0_1_n_n.rhsIdx_val_of_single rfl i q
private theorem rhsB_1 (i : S1000x768.Idx) (q : dot_S1000x256_S256x768_S1000x768_1_0_0_1_n_n.contr.Idx) :
    (dot_S1000x256_S256x768_S1000x768_1_0_0_1_n_n.rhsIdx i q 1).val = (i 1).val := by
  unfold DotDims.rhsIdx
  rw [dif_neg (show ¬(1 : Fin S256x768.rank) ∈ dot_S1000x256_S256x768_S1000x768_1_0_0_1_n_n.rhsBatch by decide), dif_pos (show (1 : Fin S256x768.rank) ∈ dot_S1000x256_S256x768_S1000x768_1_0_0_1_n_n.rhsNonContracting by decide)]
  rfl

/-- The first product into a zero accumulator at `(n, c)`: the sum over the 512 joined inputs. -/
private theorem matmulA_apply (x : FVec Ideal S1000x512 .bf16) (w : FVec Ideal S512x256 .bf16) (n : Fin 1000) (c : Fin 256) :
    FloatOps.matmul dot_S1000x512_S512x256_S1000x256_1_0_0_1_n_n none x w (constant (F := Ideal) S1000x256 .f32 0x00000000#32) (ix2 n c)
      = ∑ k : Fin 512, x (ix2 n k) * w (ix2 k c) := by
  rw [Ideal.matmul_constant_zero_apply, ← Equiv.sum_comp (contrEquiv1 dot_S1000x512_S512x256_S1000x256_1_0_0_1_n_n 512 rfl rfl).symm]
  refine Finset.sum_congr rfl fun k _ => ?_
  have hk := contrEquiv1_symm_val dot_S1000x512_S512x256_S1000x256_1_0_0_1_n_n 512 rfl rfl k
  have el : dot_S1000x512_S512x256_S1000x256_1_0_0_1_n_n.lhsIdx (ix2 n c) ((contrEquiv1 dot_S1000x512_S512x256_S1000x256_1_0_0_1_n_n 512 rfl rfl).symm k) = ix2 n k := funext fun a => Fin.ext (by
    match a with
    | ⟨0, _⟩ => exact lhsA_0 _ _
    | ⟨1, _⟩ => exact (lhsA_1 _ _).trans hk)
  have er : dot_S1000x512_S512x256_S1000x256_1_0_0_1_n_n.rhsIdx (ix2 n c) ((contrEquiv1 dot_S1000x512_S512x256_S1000x256_1_0_0_1_n_n 512 rfl rfl).symm k) = ix2 k c := funext fun a => Fin.ext (by
    match a with
    | ⟨0, _⟩ => exact (rhsA_0 _ _).trans hk
    | ⟨1, _⟩ => exact rhsA_1 _ _)
  rw [el, er]

/-- The second product into a zero accumulator at `(n, c)`: the sum over the 256 hidden units. -/
private theorem matmulB_apply (x : FVec Ideal S1000x256 .bf16) (w : FVec Ideal S256x768 .bf16) (n : Fin 1000) (c : Fin 768) :
    FloatOps.matmul dot_S1000x256_S256x768_S1000x768_1_0_0_1_n_n none x w (constant (F := Ideal) S1000x768 .f32 0x00000000#32) (ix2 n c)
      = ∑ k : Fin 256, x (ix2 n k) * w (ix2 k c) := by
  rw [Ideal.matmul_constant_zero_apply, ← Equiv.sum_comp (contrEquiv1 dot_S1000x256_S256x768_S1000x768_1_0_0_1_n_n 256 rfl rfl).symm]
  refine Finset.sum_congr rfl fun k _ => ?_
  have hk := contrEquiv1_symm_val dot_S1000x256_S256x768_S1000x768_1_0_0_1_n_n 256 rfl rfl k
  have el : dot_S1000x256_S256x768_S1000x768_1_0_0_1_n_n.lhsIdx (ix2 n c) ((contrEquiv1 dot_S1000x256_S256x768_S1000x768_1_0_0_1_n_n 256 rfl rfl).symm k) = ix2 n k := funext fun a => Fin.ext (by
    match a with
    | ⟨0, _⟩ => exact lhsB_0 _ _
    | ⟨1, _⟩ => exact (lhsB_1 _ _).trans hk)
  have er : dot_S1000x256_S256x768_S1000x768_1_0_0_1_n_n.rhsIdx (ix2 n c) ((contrEquiv1 dot_S1000x256_S256x768_S1000x768_1_0_0_1_n_n 256 rfl rfl).symm k) = ix2 k c := funext fun a => Fin.ext (by
    match a with
    | ⟨0, _⟩ => exact (rhsB_0 _ _).trans hk
    | ⟨1, _⟩ => exact rhsB_1 _ _)
  rw [el, er]

/-! ### The two layers over an arbitrary left operand -/

/-- The first layer over an arbitrary [1000,512] input `x`: at `(n, k)` the sum over the 512 inputs plus the bias. -/
private theorem layer1_apply (x : FVec Ideal S1000x512 .f32) (w1 : Vec Ideal S512x256 .bf16) (c1 : Vec Ideal S256 .f32)
    (hb : FTy.bf16.bits < FTy.f32.bits) (hw : S512x256.ShapeCasts S512x256) (h1 : S256.ShapeCasts S1x256)
    (h2 : S1x256.Broadcasts S1000x256) (n : Fin 1000) (k : Fin 256) :
    addf (FloatOps.matmul dot_S1000x512_S512x256_S1000x256_1_0_0_1_n_n none (truncf .bf16 x hb) (shapeCast S512x256 w1 hw : FVec Ideal S512x256 .bf16)
        (constant (F := Ideal) S1000x256 .f32 0x00000000#32)) (broadcastTo S1000x256 (shapeCast S1x256 c1 h1) h2) (ix2 n k)
      = (∑ j : Fin 512, x (ix2 n j) * w1 (ix2 j k)) + c1 (ix1 k) := by
  rw [addf_apply, matmulA_apply, row256_apply, shapeCast_self]
  rfl

/-- The second layer over an arbitrary [1000,256] input `y`: at `(n, q)` the sum over the 256 units plus the bias. -/
private theorem layer2_apply (y : FVec Ideal S1000x256 .f32) (w2 : Vec Ideal S256x768 .bf16) (c2 : Vec Ideal S768 .f32)
    (hb : FTy.bf16.bits < FTy.f32.bits) (hw : S256x768.ShapeCasts S256x768) (h1 : S768.ShapeCasts S1x768)
    (h2 : S1x768.Broadcasts S1000x768) (n : Fin 1000) (q : Fin 768) :
    addf (FloatOps.matmul dot_S1000x256_S256x768_S1000x768_1_0_0_1_n_n none (truncf .bf16 y hb) (shapeCast S256x768 w2 hw : FVec Ideal S256x768 .bf16)
        (constant (F := Ideal) S1000x768 .f32 0x00000000#32)) (broadcastTo S1000x768 (shapeCast S1x768 c2 h1) h2) (ix2 n q)
      = (∑ k : Fin 256, y (ix2 n k) * w2 (ix2 k q)) + c2 (ix1 q) := by
  rw [addf_apply, matmulB_apply, row768_apply, shapeCast_self]
  rfl

/-- The joined input of the first layer at `(n, j)`: the biased layer norm left of column 256, the vector norms after. -/
private theorem joined_apply (vn nrm : FVec Ideal S1000x256 .f32) (bias : Vec Ideal S256 .f32)
    (h1 : S256.ShapeCasts S1x256) (h2 : S1x256.Broadcasts S1000x256)
    (hc : Shape.Concatenates [S1000x256, S1000x256] S1000x512 1) (n : Fin 1000) (j : Fin 512) :
    concatenate S1000x512 1 [⟨S1000x256, addf nrm (broadcastTo S1000x256 (shapeCast S1x256 bias h1) h2)⟩, ⟨S1000x256, vn⟩] hc (ix2 n j)
      = joined vn nrm bias n j := by
  refine (concat_apply _ vn hc n j).trans ?_
  unfold joined
  by_cases hj : j.val < 256
  · rw [dif_pos hj, dif_pos hj, addf_apply, row256_apply]
  · rw [dif_neg hj, dif_neg hj]

/-- SiLU at an entry. -/
private theorem silu_apply (y : FVec Ideal S1000x256 .f32) (i : S1000x256.Idx) :
    mulf y (logistic y) i = y i * Ideal.logistic (y i) := rfl

/-- The second dense layer at atom `n`, output `q`: the sum over the hidden units of SiLU of the first layer times the
    weight, plus the bias. -/
theorem pay1_apply (vn nrm : FVec Ideal S1000x256 .f32) (bias : Vec Ideal S256 .f32) (w1 : Vec Ideal S512x256 .bf16)
    (c1 : Vec Ideal S256 .f32) (w2 : Vec Ideal S256x768 .bf16) (c2 : Vec Ideal S768 .f32) (n : Fin 1000) (q : Fin 768) :
    k0_pay1 vn nrm bias w1 c1 w2 c2 (ix2 n q)
      = (∑ k : Fin 256, (hid vn nrm bias w1 c1 n k * Ideal.logistic (hid vn nrm bias w1 c1 n k)) * w2 (ix2 k q))
          + c2 (ix1 q) := by
  unfold k0_pay1
  refine (layer2_apply _ w2 c2 bitsLt_bf16_f32 shapeCasts_S256x768_S256x768 shapeCasts_S768_S1x768
    broadcasts_S1x768_S1000x768 n q).trans ?_
  refine congrArg (· + c2 (ix1 q)) (Finset.sum_congr rfl fun k _ => congrArg (· * w2 (ix2 k q)) ?_)
  refine (silu_apply _ _).trans ?_
  refine congrArg (fun t : EReal => t * Ideal.logistic t) ?_
  refine (layer1_apply _ w1 c1 bitsLt_bf16_f32 shapeCasts_S512x256_S512x256 shapeCasts_S256_S1x256
    broadcasts_S1x256_S1000x256 n k).trans ?_
  unfold hid
  refine congrArg (· + c1 (ix1 k)) (Finset.sum_congr rfl fun j _ => congrArg (· * w1 (ix2 j k)) ?_)
  exact joined_apply vn nrm bias shapeCasts_S256_S1x256 broadcasts_S1x256_S1000x256
    concatenates_S1000x256_S1000x256_S1000x512_d1 n j

end Cert.KerDense

end
-- ==== Proof.KerBlock.lean ====
/-
  What the kernel body leaves in its two output blocks, read at one entry (extended reals): for atom `n` of a 1000-atom
  block the body computes the specification's row functions `sOut` and `vOut` of that atom's features and the shared
  parameter blocks. The two final stores' payloads are opened here (the three gates are column slices 0, 256 and 512 of the
  second dense layer; the inner product is a sum over the three spatial components); the pieces under them are read in the
  modules this one imports.
-/
import proofs.«180721_j88897233093049_1_alg».proof.Proof.Spec
import proofs.«180721_j88897233093049_1_alg».proof.Proof.KerPieces
import proofs.«180721_j88897233093049_1_alg».proof.Proof.KerDense
import proofs.«180721_j88897233093049_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerBlock

open Idealize.ShloMosaic Idealize.ShloMosaic.ValueIdx Cert.KernelIdeal Cert.KernelIdeal.Gen Cert.KerPieces Cert.KerDense

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The scalar output's payload at atom `n`, feature `k`: the scalar feature plus the first gate, plus the second gate
    times the inner product of the two projections over the three spatial components. -/
theorem pay2_apply (x0 : Vec Ideal S1000x256 .f32) (uv vv : FVec Ideal S1000x3x256 .f32) (vn nrm : FVec Ideal S1000x256 .f32)
    (bias : Vec Ideal S256 .f32) (w1 : Vec Ideal S512x256 .bf16) (c1 : Vec Ideal S256 .f32) (w2 : Vec Ideal S256x768 .bf16)
    (c2 : Vec Ideal S768 .f32) (n : Fin 1000) (k : Fin 256) :
    k0_pay2 x0 uv vv vn nrm bias w1 c1 w2 c2 (ix2 n k)
      = (x0 (ix2 n k) + k0_pay1 vn nrm bias w1 c1 w2 c2 (ix2 n (⟨k.val, by have := k.isLt; omega⟩ : Fin 768)))
          + k0_pay1 vn nrm bias w1 c1 w2 c2 (ix2 n (⟨k.val + 256, by have := k.isLt; omega⟩ : Fin 768))
            * ∑ d : Fin 3, uv (ix3 n d k) * vv (ix3 n d k) := by
  have e1 : extractStridedSlice S1000x256 ![0, 0] (k0_pay1 vn nrm bias w1 c1 w2 c2) slices_S1000x768_o0_0_S1000x256 (ix2 n k)
      = k0_pay1 vn nrm bias w1 c1 w2 c2 (ix2 n (⟨k.val, by have := k.isLt; omega⟩ : Fin 768)) :=
    extractStridedSlice_apply (s := S1000x768) (t := S1000x256) ![0, 0] _ _ (ix2 n k) (ix2 n (⟨k.val, by have := k.isLt; omega⟩ : Fin 768)) (fun a => match a with
      | ⟨0, _⟩ => by show n.val = 0 + n.val; omega
      | ⟨1, _⟩ => by show k.val = 0 + k.val; omega)
  have e2 : extractStridedSlice S1000x256 ![0, 256] (k0_pay1 vn nrm bias w1 c1 w2 c2) slices_S1000x768_o0_256_S1000x256 (ix2 n k)
      = k0_pay1 vn nrm bias w1 c1 w2 c2 (ix2 n (⟨k.val + 256, by have := k.isLt; omega⟩ : Fin 768)) :=
    extractStridedSlice_apply (s := S1000x768) (t := S1000x256) ![0, 256] _ _ (ix2 n k) (ix2 n (⟨k.val + 256, by have := k.isLt; omega⟩ : Fin 768)) (fun a => match a with
      | ⟨0, _⟩ => by show n.val = 0 + n.val; omega
      | ⟨1, _⟩ => by show k.val + 256 = 256 + k.val; omega)
  have e3 : multiReduction (F := Ideal) .add [1] S1000x256 (mulf uv vv) 0x00000000#32 reduces_S1000x3x256_S1000x256 (.inl rfl) rfl (ix2 n k)
      = ∑ d : Fin 3, uv (ix3 n d k) * vv (ix3 n d k) := by
    refine (Ideal.multiReduction_add_single (mulf uv vv) _ reduces_S1000x3x256_S1000x256 (.inl rfl) rfl (ix2 n k)).trans ?_
    refine Finset.sum_congr rfl fun d _ => ?_
    have hl : reduces_S1000x3x256_S1000x256.lift (ix2 n k) d = ix3 n d k :=
      funext fun a => Fin.ext (by match a with | ⟨0, _⟩ => rfl | ⟨1, _⟩ => rfl | ⟨2, _⟩ => rfl)
    rw [hl]; rfl
  unfold k0_pay2
  show (x0 (ix2 n k) + extractStridedSlice S1000x256 ![0, 0] (k0_pay1 vn nrm bias w1 c1 w2 c2) slices_S1000x768_o0_0_S1000x256 (ix2 n k))
      + extractStridedSlice S1000x256 ![0, 256] (k0_pay1 vn nrm bias w1 c1 w2 c2) slices_S1000x768_o0_256_S1000x256 (ix2 n k)
        * multiReduction (F := Ideal) .add [1] S1000x256 (mulf uv vv) 0x00000000#32 reduces_S1000x3x256_S1000x256 (.inl rfl) rfl (ix2 n k) = _
  rw [e1, e2, e3]

/-- The vector output's payload at atom `n`, component `d`, feature `k`: the vector feature plus the third gate (one value
    per atom and feature, the same for the three components) times the first projection. -/
theorem pay3_apply (x1 : Vec Ideal S1000x3x256 .f32) (uv : FVec Ideal S1000x3x256 .f32) (vn nrm : FVec Ideal S1000x256 .f32)
    (bias : Vec Ideal S256 .f32) (w1 : Vec Ideal S512x256 .bf16) (c1 : Vec Ideal S256 .f32) (w2 : Vec Ideal S256x768 .bf16)
    (c2 : Vec Ideal S768 .f32) (n : Fin 1000) (d : Fin 3) (k : Fin 256) :
    k0_pay3 x1 uv vn nrm bias w1 c1 w2 c2 (ix3 n d k)
      = x1 (ix3 n d k)
          + k0_pay1 vn nrm bias w1 c1 w2 c2 (ix2 n (⟨k.val + 512, by have := k.isLt; omega⟩ : Fin 768)) * uv (ix3 n d k) := by
  have e : broadcastTo S1000x3x256 (shapeCast S1000x1x256 (extractStridedSlice S1000x256 ![0, 512] (k0_pay1 vn nrm bias w1 c1 w2 c2)
        slices_S1000x768_o0_512_S1000x256) shapeCasts_S1000x256_S1000x1x256) broadcasts_S1000x1x256_S1000x3x256 (ix3 n d k)
      = k0_pay1 vn nrm bias w1 c1 w2 c2 (ix2 n (⟨k.val + 512, by have := k.isLt; omega⟩ : Fin 768)) := by
    refine (broadcastTo_apply (s := S1000x1x256) (t := S1000x3x256) _ _ (ix3 n d k) (ix3 n (0 : Fin 1) k) (fun a => match a with
      | ⟨0, _⟩ => by show n.val = (if (1000 : Nat) = 1 then 0 else n.val); rw [if_neg (by decide)]
      | ⟨1, _⟩ => by show 0 = (if (1 : Nat) = 1 then 0 else d.val); rw [if_pos rfl]
      | ⟨2, _⟩ => by show k.val = (if (256 : Nat) = 1 then 0 else k.val); rw [if_neg (by decide)])).trans ?_
    refine (shapeCast_apply (s := S1000x256) (t := S1000x1x256) _ _ (ix3 n (0 : Fin 1) k) (ix2 n k) (by
      rw [Shape.rowMajor_val_two, Shape.rowMajor_val_three]
      show n.val * 256 + k.val = (n.val * 1 + 0) * 256 + k.val; omega)).trans ?_
    exact extractStridedSlice_apply (s := S1000x768) (t := S1000x256) ![0, 512] _ _ (ix2 n k) (ix2 n (⟨k.val + 512, by have := k.isLt; omega⟩ : Fin 768)) (fun a => match a with
      | ⟨0, _⟩ => by show n.val = 0 + n.val; omega
      | ⟨1, _⟩ => by show k.val + 512 = 512 + k.val; omega)
  unfold k0_pay3
  show x1 (ix3 n d k) + broadcastTo S1000x3x256 (shapeCast S1000x1x256 (extractStridedSlice S1000x256 ![0, 512] (k0_pay1 vn nrm bias w1 c1 w2 c2)
        slices_S1000x768_o0_512_S1000x256) shapeCasts_S1000x256_S1000x1x256) broadcasts_S1000x1x256_S1000x3x256 (ix3 n d k) * uv (ix3 n d k) = _
  rw [e]

section Row
variable (x0 : Vec Ideal S1000x256 .f32) (x1 : Vec Ideal S1000x3x256 .f32) (x2 x3 : Vec Ideal S256 .f32)
    (x4 x5 : Vec Ideal S256x256 .bf16) (x6 : Vec Ideal S512x256 .bf16) (x7 : Vec Ideal S256 .f32)
    (x8 : Vec Ideal S256x768 .bf16) (x9 : Vec Ideal S768 .f32) (n : Fin 1000)

/-- The first dense layer's input at atom `n` is the specification's: the layer norm (with its bias) on the first 256
    places, the vector norms on the last 256. -/
theorem joined_eq (j : Fin 512) :
    joined (k0_pay7 x1 x5) (k0_pay8 x0 x2) x3 n j
      = Cert.Spec.ctxIn (fun j => x0 (ix2 n j)) (fun d h => x1 (ix3 n d h)) (fun j => x2 (ix1 j)) (fun j => x3 (ix1 j))
          (fun h k => x5 (ix2 h k)) j := by
  unfold joined Cert.Spec.ctxIn
  by_cases h : j.val < 256
  · rw [dif_pos h, dif_pos h, pay8_apply]; rfl
  · rw [dif_neg h, dif_neg h, pay7_apply]

/-- The first dense layer before its activation. -/
theorem hid_eq (k : Fin 256) :
    hid (k0_pay7 x1 x5) (k0_pay8 x0 x2) x3 x6 x7 n k
      = Cert.Spec.hidden (fun j => x0 (ix2 n j)) (fun d h => x1 (ix3 n d h)) (fun j => x2 (ix1 j)) (fun j => x3 (ix1 j))
          (fun h k => x5 (ix2 h k)) (fun j k => x6 (ix2 j k)) (fun k => x7 (ix1 k)) k := by
  unfold hid Cert.Spec.hidden
  refine congrArg (· + x7 (ix1 k)) (Finset.sum_congr rfl fun j _ => ?_)
  rw [joined_eq]

/-- The second dense layer at atom `n`, output `q`. -/
theorem ctx_eq (q : Fin 768) :
    k0_pay1 (k0_pay7 x1 x5) (k0_pay8 x0 x2) x3 x6 x7 x8 x9 (ix2 n q)
      = Cert.Spec.ctx (fun j => x0 (ix2 n j)) (fun d h => x1 (ix3 n d h)) (fun j => x2 (ix1 j)) (fun j => x3 (ix1 j))
          (fun h k => x5 (ix2 h k)) (fun j k => x6 (ix2 j k)) (fun k => x7 (ix1 k)) (fun k q => x8 (ix2 k q))
          (fun q => x9 (ix1 q)) q := by
  rw [pay1_apply]
  unfold Cert.Spec.ctx Cert.Spec.act
  refine congrArg (· + x9 (ix1 q)) (Finset.sum_congr rfl fun k _ => ?_)
  rw [hid_eq]

/-- The scalar output block at atom `n`, feature `k`, is the specification's `sOut` of that atom's row. -/
theorem ker_s (k : Fin 256) :
    out0_10 x0 x1 x2 x3 x4 x5 x6 x7 x8 x9 (ix2 n k)
      = Cert.Spec.sOut (fun j => x0 (ix2 n j)) (fun d h => x1 (ix3 n d h)) (fun j => x2 (ix1 j)) (fun j => x3 (ix1 j))
        (fun h k => x4 (ix2 h k)) (fun h k => x5 (ix2 h k)) (fun j k => x6 (ix2 j k)) (fun k => x7 (ix1 k))
        (fun k q => x8 (ix2 k q)) (fun q => x9 (ix1 q)) k := by
  unfold out0_10
  rw [View.canon_unit_zero hz2]
  simp only [View.ld_unit_zero (S := S1000x256) hz2, View.ld_unit_zero (S := S1000x3x256) hz3,
    View.ld_unit_zero (S := S256x256) hz2, View.ld_unit_zero (S := S256) hz1, View.ld_unit_zero (S := S512x256) hz2,
    View.ld_unit_zero (S := S256x768) hz2, View.ld_unit_zero (S := S768) hz1]
  rw [pay2_apply, ctx_eq, ctx_eq]
  unfold Cert.Spec.sOut Cert.Spec.dotuv
  refine congrArg (_ + _ * ·) (Finset.sum_congr rfl fun d _ => ?_)
  rw [pay5_apply, pay6_apply]

/-- The vector output block at atom `n`, component `d`, feature `k`, is the specification's `vOut` of that atom's row. -/
theorem ker_v (d : Fin 3) (k : Fin 256) :
    out0_11 x0 x1 x2 x3 x4 x5 x6 x7 x8 x9 (ix3 n d k)
      = Cert.Spec.vOut (fun j => x0 (ix2 n j)) (fun d h => x1 (ix3 n d h)) (fun j => x2 (ix1 j)) (fun j => x3 (ix1 j))
        (fun h k => x4 (ix2 h k)) (fun h k => x5 (ix2 h k)) (fun j k => x6 (ix2 j k)) (fun k => x7 (ix1 k))
        (fun k q => x8 (ix2 k q)) (fun q => x9 (ix1 q)) d k := by
  unfold out0_11
  rw [View.canon_unit_zero hz3]
  simp only [View.ld_unit_zero (S := S1000x256) hz2, View.ld_unit_zero (S := S1000x3x256) hz3,
    View.ld_unit_zero (S := S256x256) hz2, View.ld_unit_zero (S := S256) hz1, View.ld_unit_zero (S := S512x256) hz2,
    View.ld_unit_zero (S := S256x768) hz2, View.ld_unit_zero (S := S768) hz1]
  rw [pay3_apply, ctx_eq, pay5_apply]
  rfl

end Row

end Cert.KerBlock

end
-- ==== Proof.KerArrays.lean ====
/-
  From blocks to arrays. The kernel runs over 100 grid points; at point `t` the two atom-indexed inputs and the two outputs
  are staged as rows `1000 t … 1000 t + 999` of their arrays, and the eight parameter arrays whole (the four weight
  matrices after a change of float format on the host, which is the identity on the extended reals). So what point `t`
  writes back is block `t` of the specification's arrays `Gs`, `Gv` of the ten arguments; the 100 blocks tile the two
  result arrays (the block holding row `r` is `r / 1000`), hence the arrays end holding `Gs` and `Gv`.
-/
import proofs.«180721_j88897233093049_1_alg».proof.Proof.Spec
import proofs.«180721_j88897233093049_1_alg».proof.Proof.Gen.KernelIdeal.Value
import proofs.«180721_j88897233093049_1_alg».proof.Proof.KerBlock
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KerArrays

open Cert.KernelIdeal Cert.KernelIdeal.Gen Cert.KernelIdeal.Value Cert.KerBlock

variable (m : (ℓ : Loc nD τ sig) → Buf (Elt Ideal) ℓ) (ρ : Dev nD → PrngReg)

/-- The updated scalar features of every atom, of the arguments as launched. -/
abbrev Gs (c : Dev nD) : Buf (Elt Ideal) ((c : Thread nD τ).loc main_v4_0) := Cert.Spec.Gs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The updated vector features of every atom, of the arguments as launched. -/
abbrev Gv (c : Dev nD) : Buf (Elt Ideal) ((c : Thread nD τ).loc main_v4_1) := Cert.Spec.Gv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The four weight matrices as the region finds them: the arguments, entry by entry -/

theorem V_v0 (c : Dev nD) (i : S256x256.Idx) : (V m c main_v0 : S256x256.Idx → EReal) i = m ((c : Thread nD τ).loc main_arg4) i := by
  have e : (V m c main_v0 : S256x256.Idx → EReal) = truncf (F := Ideal) .bf16 (m ((c : Thread nD τ).loc main_arg4)) bitsLt_bf16_f32 := by
    dsimp only [V, hostOps0]; after_results
  rw [e]; rfl
theorem V_v1 (c : Dev nD) (i : S256x256.Idx) : (V m c main_v1 : S256x256.Idx → EReal) i = m ((c : Thread nD τ).loc main_arg5) i := by
  have e : (V m c main_v1 : S256x256.Idx → EReal) = truncf (F := Ideal) .bf16 (m ((c : Thread nD τ).loc main_arg5)) bitsLt_bf16_f32 := by
    dsimp only [V, hostOps0]; after_results
  rw [e]; rfl
theorem V_v2 (c : Dev nD) (i : S512x256.Idx) : (V m c main_v2 : S512x256.Idx → EReal) i = m ((c : Thread nD τ).loc main_arg6) i := by
  have e : (V m c main_v2 : S512x256.Idx → EReal) = truncf (F := Ideal) .bf16 (m ((c : Thread nD τ).loc main_arg6)) bitsLt_bf16_f32 := by
    dsimp only [V, hostOps0]; after_results
  rw [e]; rfl
theorem V_v3 (c : Dev nD) (i : S256x768.Idx) : (V m c main_v3 : S256x768.Idx → EReal) i = m ((c : Thread nD τ).loc main_arg8) i := by
  have e : (V m c main_v3 : S256x768.Idx → EReal) = truncf (F := Ideal) .bf16 (m ((c : Thread nD τ).loc main_arg8)) bitsLt_bf16_f32 := by
    dsimp only [V, hostOps0]; after_results
  rw [e]; rfl

/-! ## The index maps over the grid -/

/-- Decided over the 100 points: the atom-indexed windows are at block `t` along the atoms and block 0 elsewhere; the
    parameter windows always at block 0. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 1) = 0 ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0
    ∧ win0_11.index t (0 : Fin 3) = t.val ∧ win0_11.index t (1 : Fin 3) = 0 ∧ win0_11.index t (2 : Fin 3) = 0 :=
  (by decide +kernel : ∀ t : Fin grid0.N, _)

/-- The atom that row `n` of block `t` is. -/
def row (t : Fin cfg0.N) (n : Fin 1000) : Fin 100000 :=
  ⟨1000 * t.val + n.val, by have ht : t.val < 100 := lt_of_lt_of_eq t.isLt N_0; have := n.isLt; omega⟩

/-! ## The input blocks at a point, entry by entry -/

section Blocks
variable (c : Dev nD) (t : Fin cfg0.N)

theorem blk0 (n : Fin 1000) (j : Fin 256) :
    (iblk m c 0 t : Vec Ideal S1000x256 .f32) (ix2 n j) = m ((c : Thread nD τ).loc main_arg0) (ix2 (row t n) j) := by
  obtain ⟨e0, e1, -⟩ := idx_facts t
  show V m c main_arg0 (((cfg0.win 0).blk t).view.emb (ix2 n j)) = _
  rw [V_main_arg0]
  congr 1; funext a; apply Fin.ext
  match a with
  | ⟨0, _⟩ => show win0_0.index t (0 : Fin 2) * 1000 + 1 * n.val = 1000 * t.val + n.val; rw [e0]; omega
  | ⟨1, _⟩ => show win0_0.index t (1 : Fin 2) * 256 + 1 * j.val = j.val; rw [e1]; omega

theorem blk1 (n : Fin 1000) (d : Fin 3) (h : Fin 256) :
    (iblk m c 1 t : Vec Ideal S1000x3x256 .f32) (ix3 n d h) = m ((c : Thread nD τ).loc main_arg1) (ix3 (row t n) d h) := by
  obtain ⟨-, -, e0, e1, e2, -⟩ := idx_facts t
  show V m c main_arg1 (((cfg0.win 1).blk t).view.emb (ix3 n d h)) = _
  rw [V_main_arg1]
  congr 1; funext a; apply Fin.ext
  match a with
  | ⟨0, _⟩ => show win0_1.index t (0 : Fin 3) * 1000 + 1 * n.val = 1000 * t.val + n.val; rw [e0]; omega
  | ⟨1, _⟩ => show win0_1.index t (1 : Fin 3) * 3 + 1 * d.val = d.val; rw [e1]; omega
  | ⟨2, _⟩ => show win0_1.index t (2 : Fin 3) * 256 + 1 * h.val = h.val; rw [e2]; omega

theorem blk2 (j : Fin 256) : (iblk m c 2 t : Vec Ideal S256 .f32) (ix1 j) = m ((c : Thread nD τ).loc main_arg2) (ix1 j) := by
  obtain ⟨-, -, -, -, -, e0, -⟩ := idx_facts t
  show V m c main_arg2 (((cfg0.win 2).blk t).view.emb (ix1 j)) = _
  rw [V_main_arg2]
  congr 1; funext a; apply Fin.ext
  match a with
  | ⟨0, _⟩ => show win0_2.index t (0 : Fin 1) * 256 + 1 * j.val = j.val; rw [e0]; omega

theorem blk3 (j : Fin 256) : (iblk m c 3 t : Vec Ideal S256 .f32) (ix1 j) = m ((c : Thread nD τ).loc main_arg3) (ix1 j) := by
  obtain ⟨-, -, -, -, -, -, e0, -⟩ := idx_facts t
  show V m c main_arg3 (((cfg0.win 3).blk t).view.emb (ix1 j)) = _
  rw [V_main_arg3]
  congr 1; funext a; apply Fin.ext
  match a with
  | ⟨0, _⟩ => show win0_3.index t (0 : Fin 1) * 256 + 1 * j.val = j.val; rw [e0]; omega

theorem blk4 (h k : Fin 256) : (iblk m c 4 t : Vec Ideal S256x256 .bf16) (ix2 h k) = m ((c : Thread nD τ).loc main_arg4) (ix2 h k) := by
  obtain ⟨-, -, -, -, -, -, -, e0, e1, -⟩ := idx_facts t
  show V m c main_v0 (((cfg0.win 4).blk t).view.emb (ix2 h k)) = _
  refine (V_v0 m c _).trans ?_
  congr 1; funext a; apply Fin.ext
  match a with
  | ⟨0, _⟩ => show win0_4.index t (0 : Fin 2) * 256 + 1 * h.val = h.val; rw [e0]; omega
  | ⟨1, _⟩ => show win0_4.index t (1 : Fin 2) * 256 + 1 * k.val = k.val; rw [e1]; omega

theorem blk5 (h k : Fin 256) : (iblk m c 5 t : Vec Ideal S256x256 .bf16) (ix2 h k) = m ((c : Thread nD τ).loc main_arg5) (ix2 h k) := by
  obtain ⟨-, -, -, -, -, -, -, -, -, e0, e1, -⟩ := idx_facts t
  show V m c main_v1 (((cfg0.win 5).blk t).view.emb (ix2 h k)) = _
  refine (V_v1 m c _).trans ?_
  congr 1; funext a; apply Fin.ext
  match a with
  | ⟨0, _⟩ => show win0_5.index t (0 : Fin 2) * 256 + 1 * h.val = h.val; rw [e0]; omega
  | ⟨1, _⟩ => show win0_5.index t (1 : Fin 2) * 256 + 1 * k.val = k.val; rw [e1]; omega

theorem blk6 (j : Fin 512) (k : Fin 256) : (iblk m c 6 t : Vec Ideal S512x256 .bf16) (ix2 j k) = m ((c : Thread nD τ).loc main_arg6) (ix2 j k) := by
  obtain ⟨-, -, -, -, -, -, -, -, -, -, -, e0, e1, -⟩ := idx_facts t
  show V m c main_v2 (((cfg0.win 6).blk t).view.emb (ix2 j k)) = _
  refine (V_v2 m c _).trans ?_
  congr 1; funext a; apply Fin.ext
  match a with
  | ⟨0, _⟩ => show win0_6.index t (0 : Fin 2) * 512 + 1 * j.val = j.val; rw [e0]; omega
  | ⟨1, _⟩ => show win0_6.index t (1 : Fin 2) * 256 + 1 * k.val = k.val; rw [e1]; omega

theorem blk7 (k : Fin 256) : (iblk m c 7 t : Vec Ideal S256 .f32) (ix1 k) = m ((c : Thread nD τ).loc main_arg7) (ix1 k) := by
  obtain ⟨-, -, -, -, -, -, -, -, -, -, -, -, -, e0, -⟩ := idx_facts t
  show V m c main_arg7 (((cfg0.win 7).blk t).view.emb (ix1 k)) = _
  rw [V_main_arg7]
  congr 1; funext a; apply Fin.ext
  match a with
  | ⟨0, _⟩ => show win0_7.index t (0 : Fin 1) * 256 + 1 * k.val = k.val; rw [e0]; omega

theorem blk8 (k : Fin 256) (q : Fin 768) : (iblk m c 8 t : Vec Ideal S256x768 .bf16) (ix2 k q) = m ((c : Thread nD τ).loc main_arg8) (ix2 k q) := by
  obtain ⟨-, -, -, -, -, -, -, -, -, -, -, -, -, -, e0, e1, -⟩ := idx_facts t
  show V m c main_v3 (((cfg0.win 8).blk t).view.emb (ix2 k q)) = _
  refine (V_v3 m c _).trans ?_
  congr 1; funext a; apply Fin.ext
  match a with
  | ⟨0, _⟩ => show win0_8.index t (0 : Fin 2) * 256 + 1 * k.val = k.val; rw [e0]; omega
  | ⟨1, _⟩ => show win0_8.index t (1 : Fin 2) * 768 + 1 * q.val = q.val; rw [e1]; omega

theorem blk9 (q : Fin 768) : (iblk m c 9 t : Vec Ideal S768 .f32) (ix1 q) = m ((c : Thread nD τ).loc main_arg9) (ix1 q) := by
  obtain ⟨-, -, -, -, -, -, -, -, -, -, -, -, -, -, -, -, e0, -⟩ := idx_facts t
  show V m c main_arg9 (((cfg0.win 9).blk t).view.emb (ix1 q)) = _
  rw [V_main_arg9]
  congr 1; funext a; apply Fin.ext
  match a with
  | ⟨0, _⟩ => show win0_9.index t (0 : Fin 1) * 768 + 1 * q.val = q.val; rw [e0]; omega

end Blocks

/-! ## What a point writes back -/

/-- Point `t` writes back block `t` of `Gs`. -/
theorem flushed10_eq (c : Dev nD) (t : Fin cfg0.N) :
    (dats m 0 c).flushed 10 t = ((cfg0.win 10).blk t).view.read (Elt Ideal) (Gs m c) := by
  rw [flushed10]
  funext y
  obtain ⟨n, k, rfl⟩ : ∃ (n : Fin 1000) (k : Fin 256), y = ix2 n k := ⟨y 0, y 1, eq_ix2 y⟩
  obtain ⟨-, -, -, -, -, -, -, -, -, -, -, -, -, -, -, -, -, e0, e1, -⟩ := idx_facts t
  show out0_10 (iblk m c 0 t) (iblk m c 1 t) (iblk m c 2 t) (iblk m c 3 t) (iblk m c 4 t) (iblk m c 5 t) (iblk m c 6 t) (iblk m c 7 t) (iblk m c 8 t) (iblk m c 9 t) (ix2 n k) = Gs m c (((cfg0.win 10).blk t).view.emb (ix2 n k))
  have hi : ((cfg0.win 10).blk t).view.emb (ix2 n k) = (ix2 (row t n) k : S100000x256.Idx) := by
    funext a; apply Fin.ext
    match a with
    | ⟨0, _⟩ => show win0_10.index t (0 : Fin 2) * 1000 + 1 * n.val = 1000 * t.val + n.val; rw [e0]; omega
    | ⟨1, _⟩ => show win0_10.index t (1 : Fin 2) * 256 + 1 * k.val = k.val; rw [e1]; omega
  rw [hi]
  refine (ker_s (iblk m c 0 t) (iblk m c 1 t) (iblk m c 2 t) (iblk m c 3 t) (iblk m c 4 t) (iblk m c 5 t) (iblk m c 6 t) (iblk m c 7 t) (iblk m c 8 t) (iblk m c 9 t) n k).trans ?_
  show _ = Cert.Spec.sOut _ _ _ _ _ _ _ _ _ _ k
  simp only [blk0 m c t, blk1 m c t, blk2 m c t, blk3 m c t, blk4 m c t, blk5 m c t, blk6 m c t, blk7 m c t, blk8 m c t, blk9 m c t]

/-- Point `t` writes back block `t` of `Gv`. -/
theorem flushed11_eq (c : Dev nD) (t : Fin cfg0.N) :
    (dats m 0 c).flushed 11 t = ((cfg0.win 11).blk t).view.read (Elt Ideal) (Gv m c) := by
  rw [flushed11]
  funext y
  obtain ⟨n, d, k, rfl⟩ : ∃ (n : Fin 1000) (d : Fin 3) (k : Fin 256), y = ix3 n d k := ⟨y 0, y 1, y 2, eq_ix3 y⟩
  obtain ⟨-, -, -, -, -, -, -, -, -, -, -, -, -, -, -, -, -, -, -, e0, e1, e2⟩ := idx_facts t
  show out0_11 (iblk m c 0 t) (iblk m c 1 t) (iblk m c 2 t) (iblk m c 3 t) (iblk m c 4 t) (iblk m c 5 t) (iblk m c 6 t) (iblk m c 7 t) (iblk m c 8 t) (iblk m c 9 t) (ix3 n d k) = Gv m c (((cfg0.win 11).blk t).view.emb (ix3 n d k))
  have hi : ((cfg0.win 11).blk t).view.emb (ix3 n d k) = (ix3 (row t n) d k : S100000x3x256.Idx) := by
    funext a; apply Fin.ext
    match a with
    | ⟨0, _⟩ => show win0_11.index t (0 : Fin 3) * 1000 + 1 * n.val = 1000 * t.val + n.val; rw [e0]; omega
    | ⟨1, _⟩ => show win0_11.index t (1 : Fin 3) * 3 + 1 * d.val = d.val; rw [e1]; omega
    | ⟨2, _⟩ => show win0_11.index t (2 : Fin 3) * 256 + 1 * k.val = k.val; rw [e2]; omega
  rw [hi]
  refine (ker_v (iblk m c 0 t) (iblk m c 1 t) (iblk m c 2 t) (iblk m c 3 t) (iblk m c 4 t) (iblk m c 5 t) (iblk m c 6 t) (iblk m c 7 t) (iblk m c 8 t) (iblk m c 9 t) n d k).trans ?_
  show _ = Cert.Spec.vOut _ _ _ _ _ _ _ _ _ _ d k
  simp only [blk0 m c t, blk1 m c t, blk2 m c t, blk3 m c t, blk4 m c t, blk5 m c t, blk6 m c t, blk7 m c t, blk8 m c t, blk9 m c t]

/-! ## The blocks tile the result arrays -/

theorem mem_blk10 (t : Fin cfg0.N) (i : S100000x256.Idx) :
    i ∈ ((cfg0.win 10).blk t).view.set ↔ ∀ a : Fin 2, win0_10.index t a * S1000x256.size a ≤ (i a).val ∧ (i a).val < win0_10.index t a * S1000x256.size a + S1000x256.size a := by
  show i ∈ ((View.whole main_v4_0).slice (win0_10.rect t)).set ↔ _
  rw [View.set_slice_whole, Rect.mem_set_unit]
  exact Iff.rfl

theorem mem_blk11 (t : Fin cfg0.N) (i : S100000x3x256.Idx) :
    i ∈ ((cfg0.win 11).blk t).view.set ↔ ∀ a : Fin 3, win0_11.index t a * S1000x3x256.size a ≤ (i a).val ∧ (i a).val < win0_11.index t a * S1000x3x256.size a + S1000x3x256.size a := by
  show i ∈ ((View.whole main_v4_1).slice (win0_11.rect t)).set ↔ _
  rw [View.set_slice_whole, Rect.mem_set_unit]
  exact Iff.rfl

/-- Row `r` of the scalar result is in block `r / 1000`. -/
theorem cover10 (i : S100000x256.Idx) : ∃ t : Fin cfg0.N, (cfg0.win 10).flush t = true ∧ i ∈ ((cfg0.win 10).blk t).view.set := by
  have hi0 : (i 0).val < 100000 := (i 0).isLt
  have hi1 : (i 1).val < 256 := (i 1).isLt
  have hN : cfg0.N = 100 := N_0
  have ht : (i 0).val / 1000 < cfg0.N := by rw [hN]; omega
  obtain ⟨-, -, -, -, -, -, -, -, -, -, -, -, -, -, -, -, -, e0, e1, -⟩ := idx_facts ⟨(i 0).val / 1000, ht⟩
  refine ⟨⟨(i 0).val / 1000, ht⟩, flush0_10 _, ?_⟩
  rw [mem_blk10]
  intro a
  match a with
  | ⟨0, _⟩ =>
    show win0_10.index ⟨(i 0).val / 1000, ht⟩ (0 : Fin 2) * 1000 ≤ (i 0).val ∧ (i 0).val < win0_10.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_10.index ⟨(i 0).val / 1000, ht⟩ (1 : Fin 2) * 256 ≤ (i 1).val ∧ (i 1).val < win0_10.index ⟨(i 0).val / 1000, ht⟩ (1 : Fin 2) * 256 + 256
    rw [e1]; omega

/-- Row `r` of the vector result is in block `r / 1000`. -/
theorem cover11 (i : S100000x3x256.Idx) : ∃ t : Fin cfg0.N, (cfg0.win 11).flush t = true ∧ i ∈ ((cfg0.win 11).blk t).view.set := by
  have hi0 : (i 0).val < 100000 := (i 0).isLt
  have hi1 : (i 1).val < 3 := (i 1).isLt
  have hi2 : (i 2).val < 256 := (i 2).isLt
  have hN : cfg0.N = 100 := N_0
  have ht : (i 0).val / 1000 < cfg0.N := by rw [hN]; omega
  obtain ⟨-, -, -, -, -, -, -, -, -, -, -, -, -, -, -, -, -, -, -, e0, e1, e2⟩ := idx_facts ⟨(i 0).val / 1000, ht⟩
  refine ⟨⟨(i 0).val / 1000, ht⟩, flush0_11 _, ?_⟩
  rw [mem_blk11]
  intro a
  match a with
  | ⟨0, _⟩ =>
    show win0_11.index ⟨(i 0).val / 1000, ht⟩ (0 : Fin 3) * 1000 ≤ (i 0).val ∧ (i 0).val < win0_11.index ⟨(i 0).val / 1000, ht⟩ (0 : Fin 3) * 1000 + 1000
    rw [e0]; show (i 0).val / 1000 * 1000 ≤ (i 0).val ∧ (i 0).val < (i 0).val / 1000 * 1000 + 1000; omega
  | ⟨1, _⟩ =>
    show win0_11.index ⟨(i 0).val / 1000, ht⟩ (1 : Fin 3) * 3 ≤ (i 1).val ∧ (i 1).val < win0_11.index ⟨(i 0).val / 1000, ht⟩ (1 : Fin 3) * 3 + 3
    rw [e1]; omega
  | ⟨2, _⟩ =>
    show win0_11.index ⟨(i 0).val / 1000, ht⟩ (2 : Fin 3) * 256 ≤ (i 2).val ∧ (i 2).val < win0_11.index ⟨(i 0).val / 1000, ht⟩ (2 : Fin 3) * 256 + 256
    rw [e2]; omega

/-- The scalar result array ends holding `Gs`. -/
theorem final10 (c : Dev nD) : (dats m 0 c).arrAt 10 cfg0.N = Gs m c :=
  (dats m 0 c).arrAt_eq_of_cover 10 (Gs m c) (fun t _ => flushed10_eq m c t) cover10

/-- The vector result array ends holding `Gv`. -/
theorem final11 (c : Dev nD) : (dats m 0 c).arrAt 11 cfg0.N = Gv m c :=
  (dats m 0 c).arrAt_eq_of_cover 11 (Gv m c) (fun t _ => flushed11_eq m c t) cover11

/-! ## The run, read -/

/-- Every weakly fair execution of the idealized kernel ends with its two result arrays at `Gs` and `Gv` of the
    arguments, the arguments unchanged. -/
theorem run : θ_run defs (onTc (τ := τ) (main (F := Ideal))) ⟨m, fun _ => 0, ρ⟩ fun r => ∀ c : Dev nD,
      r.2.mem ((c : Thread nD τ).loc main_v4_0) = Gs m c
      ∧ r.2.mem ((c : Thread nD τ).loc main_v4_1) = Gv m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (run_blocks m ρ)

end Cert.KerArrays

end
-- ==== Proof.RefIsSpec.lean ====
/-
  The reference program's two results, stage by stage, are the specification's two arrays: at every atom the reference
  computes the row functions of Spec.lean of that atom's features and the shared parameters.
-/
import proofs.«180721_j88897233093049_1_alg».proof.Proof.Spec
import proofs.«180721_j88897233093049_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefSide

open Idealize.ShloMosaic Idealize.ShloMosaic.ValueIdx Cert.ReferenceIdeal Cert.ReferenceIdeal.Gen Cert.ReferenceIdeal.Read

/-! ## The two words both programs spell out: zero and one -/

private theorem word_zero : (FloatOps.ofBits (F := Ideal) .f32 0x00000000#32 : EReal) = 0 := Ideal.ofBits_zero_f32

private theorem word_one : (FloatOps.ofBits (F := Ideal) .f32 0x3F800000#32 : EReal) = 1 := by
  show Ideal.ofBits .f32 0x3F800000#32 = 1
  simp [Ideal.ofBits, Ideal.ieee, -EReal.coe_mul]; norm_num

/-! ## The two projections of the vector features -/

/-- The first contraction is the projection through the fifth argument array. -/
private theorem r_v0 (x1 : (⟨S100000x3x256, .f32⟩ : BufTy).Contents (Elt Ideal)) (x4 : (⟨S256x256, .f32⟩ : BufTy).Contents (Elt Ideal)) (n : Fin 100000) (d : Fin 3) (k : Fin 256) :
    val_main_v0 (F := Ideal) x1 x4 (ix3 n d k) = Spec.proj (fun d h => x1 (ix3 n d h)) (fun h k => x4 (ix2 h k)) d k := by
  refine (val_main_v0_apply x1 x4 _).trans ?_
  unfold Spec.proj
  refine Finset.sum_congr rfl fun h _ => ?_
  have e1 : lidx_main_v0 (ix3 n d k) h = ix3 n d h := (funext fun a => by match a with | ⟨0, _⟩ => rfl | ⟨1, _⟩ => rfl | ⟨2, _⟩ => rfl)
  have e2 : ridx_main_v0 (ix3 n d k) h = ix2 h k := (funext fun a => by match a with | ⟨0, _⟩ => rfl | ⟨1, _⟩ => rfl)
  rw [e1, e2]

/-- The second contraction is the projection through the sixth argument array. -/
private theorem r_v1 (x1 : (⟨S100000x3x256, .f32⟩ : BufTy).Contents (Elt Ideal)) (x5 : (⟨S256x256, .f32⟩ : BufTy).Contents (Elt Ideal)) (n : Fin 100000) (d : Fin 3) (k : Fin 256) :
    val_main_v1 (F := Ideal) x1 x5 (ix3 n d k) = Spec.proj (fun d h => x1 (ix3 n d h)) (fun h k => x5 (ix2 h k)) d k := by
  refine (val_main_v1_apply x1 x5 _).trans ?_
  unfold Spec.proj
  refine Finset.sum_congr rfl fun h _ => ?_
  have e1 : lidx_main_v1 (ix3 n d k) h = ix3 n d h := (funext fun a => by match a with | ⟨0, _⟩ => rfl | ⟨1, _⟩ => rfl | ⟨2, _⟩ => rfl)
  have e2 : ridx_main_v1 (ix3 n d k) h = ix2 h k := (funext fun a => by match a with | ⟨0, _⟩ => rfl | ⟨1, _⟩ => rfl)
  rw [e1, e2]

/-- The root of the summed squares over the three spatial components, ε₁ added under the root. -/
private theorem r_v6 (x1 : (⟨S100000x3x256, .f32⟩ : BufTy).Contents (Elt Ideal)) (x5 : (⟨S256x256, .f32⟩ : BufTy).Contents (Elt Ideal)) (n : Fin 100000) (k : Fin 256) :
    val_main_v6 (F := Ideal) x1 x5 (ix2 n k) = Spec.vnorm (fun d h => x1 (ix3 n d h)) (fun h k => x5 (ix2 h k)) k := by
  refine (val_main_v6_apply x1 x5 _).trans ?_
  rw [val_main_v5_apply, val_main_v3_apply, val_main_v4_apply, val_main_cst_0_apply,
    Ideal.hostUnary_sqrt_def, Ideal.addf_def]
  have hz : (val_main_cst (F := Ideal)) (Shape.Idx.first h_S_) = 0 := word_zero
  rw [hz, zero_add]
  unfold Spec.vnorm
  refine congrArg Ideal.sqrt (congrArg (· + _) (Finset.sum_congr rfl fun d _ => ?_))
  have e : idx_main_v3 (ix2 n k) d = ix3 n d k := (funext fun a => by match a with | ⟨0, _⟩ => rfl | ⟨1, _⟩ => rfl | ⟨2, _⟩ => rfl)
  rw [e]
  show val_main_v1 (F := Ideal) x1 x5 (ix3 n d k) * val_main_v1 (F := Ideal) x1 x5 (ix3 n d k) = _
  rw [r_v1]

/-- The inner product of the two projections over the three spatial components. -/
private theorem r_v45 (x1 : (⟨S100000x3x256, .f32⟩ : BufTy).Contents (Elt Ideal)) (x4 x5 : (⟨S256x256, .f32⟩ : BufTy).Contents (Elt Ideal)) (n : Fin 100000) (k : Fin 256) :
    val_main_v45 (F := Ideal) x1 x4 x5 (ix2 n k) = Spec.dotuv (fun d h => x1 (ix3 n d h)) (fun h k => x4 (ix2 h k)) (fun h k => x5 (ix2 h k)) k := by
  rw [val_main_v45_apply]
  have hz : (val_main_cst_6 (F := Ideal)) (Shape.Idx.first h_S_) = 0 := word_zero
  rw [hz, zero_add]
  unfold Spec.dotuv
  refine Finset.sum_congr rfl fun d _ => ?_
  have e : idx_main_v45 (ix2 n k) d = ix3 n d k := (funext fun a => by match a with | ⟨0, _⟩ => rfl | ⟨1, _⟩ => rfl | ⟨2, _⟩ => rfl)
  rw [e]
  show val_main_v0 (F := Ideal) x1 x4 (ix3 n d k) * val_main_v1 (F := Ideal) x1 x5 (ix3 n d k) = _
  rw [r_v0, r_v1]

/-! ## The layer norm of the scalar features -/

/-- The row's mean, held in a one-column array. -/
private theorem r_mean (x0 : (⟨S100000x256, .f32⟩ : BufTy).Contents (Elt Ideal)) (n : Fin 100000) (z : Fin 1) :
    val_main_v10 (F := Ideal) x0 (ix2 n z) = Spec.mean (fun j => x0 (ix2 n j)) := by
  refine (val_main_v10_apply x0 _).trans ?_
  rw [val_main_v8_apply, val_main_v9_apply, val_main_v7_apply]
  have hz : (val_main_cst_1 (F := Ideal)) (Shape.Idx.first h_S_) = 0 := word_zero
  rw [hz, zero_add]
  unfold Spec.mean
  show Ideal.div (∑ k : Fin 256, x0 (idx_main_v7 (idx_main_v8 (ix2 n z)) k)) (Ideal.ofBits .f32 0x43800000#32) = _
  refine congrArg (fun t => Ideal.div t _) (Finset.sum_congr rfl fun k _ => ?_)
  exact congrArg x0 (funext fun a => by match a with | ⟨0, _⟩ => rfl | ⟨1, _⟩ => rfl)

/-- The centred row, as the variance reads it. -/
private theorem r_v12 (x0 : (⟨S100000x256, .f32⟩ : BufTy).Contents (Elt Ideal)) (n : Fin 100000) (j : Fin 256) :
    val_main_v12 (F := Ideal) x0 (ix2 n j) = x0 (ix2 n j) - Spec.mean (fun j => x0 (ix2 n j)) := by
  refine (val_main_v12_apply x0 _).trans ?_
  rw [val_main_v11_apply]
  have e : idx_main_v11 (ix2 n j) = ix2 n (⟨0, Nat.one_pos⟩ : Fin 1) := (funext fun a => by match a with | ⟨0, _⟩ => rfl | ⟨1, _⟩ => rfl)
  rw [e, r_mean]
  rfl

/-- The centred row, as the normalisation reads it. -/
private theorem r_v19 (x0 : (⟨S100000x256, .f32⟩ : BufTy).Contents (Elt Ideal)) (n : Fin 100000) (j : Fin 256) :
    val_main_v19 (F := Ideal) x0 (ix2 n j) = x0 (ix2 n j) - Spec.mean (fun j => x0 (ix2 n j)) := by
  refine (val_main_v19_apply x0 _).trans ?_
  rw [val_main_v18_apply]
  have e : idx_main_v18 (ix2 n j) = ix2 n (⟨0, Nat.one_pos⟩ : Fin 1) := (funext fun a => by match a with | ⟨0, _⟩ => rfl | ⟨1, _⟩ => rfl)
  rw [e, r_mean]
  rfl

/-- The row's biased variance, held in a one-column array. -/
private theorem r_var (x0 : (⟨S100000x256, .f32⟩ : BufTy).Contents (Elt Ideal)) (n : Fin 100000) (z : Fin 1) :
    val_main_v17 (F := Ideal) x0 (ix2 n z) = Spec.var (fun j => x0 (ix2 n j)) := by
  refine (val_main_v17_apply x0 _).trans ?_
  rw [val_main_v15_apply, val_main_v16_apply, val_main_v14_apply]
  have hz : (val_main_cst_3 (F := Ideal)) (Shape.Idx.first h_S_) = 0 := word_zero
  rw [hz, zero_add]
  unfold Spec.var
  show Ideal.div (∑ k : Fin 256, val_main_v13 (F := Ideal) x0 (idx_main_v14 (idx_main_v15 (ix2 n z)) k)) (Ideal.ofBits .f32 0x43800000#32) = _
  refine congrArg (fun t => Ideal.div t _) (Finset.sum_congr rfl fun k _ => ?_)
  have e : idx_main_v14 (idx_main_v15 (ix2 n z)) k = ix2 n k := (funext fun a => by match a with | ⟨0, _⟩ => rfl | ⟨1, _⟩ => rfl)
  rw [e]
  show val_main_v12 (F := Ideal) x0 (ix2 n k) * val_main_v12 (F := Ideal) x0 (ix2 n k) = _
  rw [r_v12]

/-- The reciprocal root of the variance plus ε₂, spread over the row. -/
private theorem r_v23 (x0 : (⟨S100000x256, .f32⟩ : BufTy).Contents (Elt Ideal)) (n : Fin 100000) (j : Fin 256) :
    val_main_v23 (F := Ideal) x0 (ix2 n j)
      = Ideal.rsqrt (Spec.var (fun j => x0 (ix2 n j)) + (Ideal.ofBits .f32 0x3727C5AC#32 : EReal)) := by
  rw [val_main_v23_apply]
  have e : idx_main_v23 (ix2 n j) = ix2 n (⟨0, Nat.one_pos⟩ : Fin 1) := (funext fun a => by match a with | ⟨0, _⟩ => rfl | ⟨1, _⟩ => rfl)
  rw [e]
  refine (val_main_v22_apply x0 _).trans ?_
  show Ideal.rsqrt (val_main_v17 (F := Ideal) x0 (ix2 n _) + val_main_v20 (F := Ideal) (ix2 n _)) = _
  rw [r_var, val_main_v20_apply]
  rfl

/-- A parameter vector spread over the rows reads the vector at the column. -/
private theorem r_v26 (x2 : (⟨S256, .f32⟩ : BufTy).Contents (Elt Ideal)) (n : Fin 100000) (j : Fin 256) :
    val_main_v26 (F := Ideal) x2 (ix2 n j) = x2 (ix1 j) := by
  rw [val_main_v26_apply, val_main_v25_apply]
  exact congrArg x2 (funext fun a => by match a with | ⟨0, _⟩ => rfl)

private theorem r_v29 (x3 : (⟨S256, .f32⟩ : BufTy).Contents (Elt Ideal)) (n : Fin 100000) (j : Fin 256) :
    val_main_v29 (F := Ideal) x3 (ix2 n j) = x3 (ix1 j) := by
  rw [val_main_v29_apply, val_main_v28_apply]
  exact congrArg x3 (funext fun a => by match a with | ⟨0, _⟩ => rfl)

private theorem r_v34 (x7 : (⟨S256, .f32⟩ : BufTy).Contents (Elt Ideal)) (n : Fin 100000) (j : Fin 256) :
    val_main_v34 (F := Ideal) x7 (ix2 n j) = x7 (ix1 j) := by
  rw [val_main_v34_apply, val_main_v33_apply]
  exact congrArg x7 (funext fun a => by match a with | ⟨0, _⟩ => rfl)

private theorem r_v39 (x9 : (⟨S768, .f32⟩ : BufTy).Contents (Elt Ideal)) (n : Fin 100000) (q : Fin 768) :
    val_main_v39 (F := Ideal) x9 (ix2 n q) = x9 (ix1 q) := by
  rw [val_main_v39_apply, val_main_v38_apply]
  exact congrArg x9 (funext fun a => by match a with | ⟨0, _⟩ => rfl)

/-- The layer norm at a column. -/
private theorem r_v30 (x0 : (⟨S100000x256, .f32⟩ : BufTy).Contents (Elt Ideal)) (x2 x3 : (⟨S256, .f32⟩ : BufTy).Contents (Elt Ideal)) (n : Fin 100000) (j : Fin 256) :
    val_main_v30 (F := Ideal) x0 x2 x3 (ix2 n j) = Spec.normed (fun j => x0 (ix2 n j)) (fun j => x2 (ix1 j)) (fun j => x3 (ix1 j)) j := by
  show val_main_v19 (F := Ideal) x0 (ix2 n j) * val_main_v23 (F := Ideal) x0 (ix2 n j) * val_main_v26 (F := Ideal) x2 (ix2 n j)
      + val_main_v29 (F := Ideal) x3 (ix2 n j) = _
  rw [r_v19, r_v23, r_v26, r_v29]
  rfl

/-! ## The two dense layers -/

/-- The joined array: the layer norm on the first 256 columns, the vector norms on the last 256. -/
private theorem r_v31 (x0 : (⟨S100000x256, .f32⟩ : BufTy).Contents (Elt Ideal)) (x1 : (⟨S100000x3x256, .f32⟩ : BufTy).Contents (Elt Ideal)) (x2 x3 : (⟨S256, .f32⟩ : BufTy).Contents (Elt Ideal)) (x5 : (⟨S256x256, .f32⟩ : BufTy).Contents (Elt Ideal)) (n : Fin 100000) (j : Fin 512) :
    val_main_v31 (F := Ideal) x0 x1 x2 x3 x5 (ix2 n j) = Spec.ctxIn (fun j => x0 (ix2 n j)) (fun d h => x1 (ix3 n d h)) (fun j => x2 (ix1 j)) (fun j => x3 (ix1 j)) (fun h k => x5 (ix2 h k)) j := by
  unfold Spec.ctxIn val_main_v31
  by_cases h : j.val < 256
  · rw [dif_pos h]
    refine (concatenate_pair_apply_left (1 : Fin S100000x512.rank) _ _ concatenates_S100000x256_S100000x256_S100000x512_d1
      (ix2 n j) rfl (ix2 n (⟨j.val, h⟩ : Fin 256)) ?_).trans (r_v30 x0 x2 x3 n ⟨j.val, h⟩)
    intro b
    match b with
    | ⟨0, _⟩ => rfl
    | ⟨1, _⟩ => rfl
  · rw [dif_neg h]
    refine (concatenate_pair_apply_right (1 : Fin S100000x512.rank) _ _ concatenates_S100000x256_S100000x256_S100000x512_d1
      (ix2 n j) rfl rfl (ix2 n (⟨j.val - 256, by have := j.isLt; omega⟩ : Fin 256)) ?_ ?_).trans (r_v6 x1 x5 n _)
    · intro b hb
      match b, hb with
      | ⟨0, _⟩, _ => rfl
      | ⟨1, _⟩, hb => exact absurd rfl hb
    · show (j.val - 256) + 256 = j.val
      omega

/-- The first dense layer before its activation. -/
private theorem r_v35 (x0 : (⟨S100000x256, .f32⟩ : BufTy).Contents (Elt Ideal)) (x1 : (⟨S100000x3x256, .f32⟩ : BufTy).Contents (Elt Ideal)) (x2 x3 : (⟨S256, .f32⟩ : BufTy).Contents (Elt Ideal)) (x5 : (⟨S256x256, .f32⟩ : BufTy).Contents (Elt Ideal)) (x6 : (⟨S512x256, .f32⟩ : BufTy).Contents (Elt Ideal)) (x7 : (⟨S256, .f32⟩ : BufTy).Contents (Elt Ideal)) (n : Fin 100000) (k : Fin 256) :
    val_main_v35 (F := Ideal) x0 x1 x2 x3 x5 x6 x7 (ix2 n k)
      = Spec.hidden (fun j => x0 (ix2 n j)) (fun d h => x1 (ix3 n d h)) (fun j => x2 (ix1 j)) (fun j => x3 (ix1 j)) (fun h k => x5 (ix2 h k)) (fun j k => x6 (ix2 j k)) (fun k => x7 (ix1 k)) k := by
  refine (val_main_v35_apply x0 x1 x2 x3 x5 x6 x7 _).trans ?_
  rw [val_main_v32_apply, r_v34]
  unfold Spec.hidden
  refine congrArg (· + _) (Finset.sum_congr rfl fun j _ => ?_)
  have e1 : lidx_main_v32 (ix2 n k) j = ix2 n j := (funext fun a => by match a with | ⟨0, _⟩ => rfl | ⟨1, _⟩ => rfl)
  have e2 : ridx_main_v32 (ix2 n k) j = ix2 j k := (funext fun a => by match a with | ⟨0, _⟩ => rfl | ⟨1, _⟩ => rfl)
  rw [e1, e2, r_v31]

/-- SiLU as the reference spells it: the value times one over one plus the exponential of its negative. -/
private theorem r_v36 (x0 : (⟨S100000x256, .f32⟩ : BufTy).Contents (Elt Ideal)) (x1 : (⟨S100000x3x256, .f32⟩ : BufTy).Contents (Elt Ideal)) (x2 x3 : (⟨S256, .f32⟩ : BufTy).Contents (Elt Ideal)) (x5 : (⟨S256x256, .f32⟩ : BufTy).Contents (Elt Ideal)) (x6 : (⟨S512x256, .f32⟩ : BufTy).Contents (Elt Ideal)) (x7 : (⟨S256, .f32⟩ : BufTy).Contents (Elt Ideal)) (n : Fin 100000) (k : Fin 256) :
    val_main_v36 (F := Ideal) x0 x1 x2 x3 x5 x6 x7 (ix2 n k)
      = Spec.act (fun j => x0 (ix2 n j)) (fun d h => x1 (ix3 n d h)) (fun j => x2 (ix1 j)) (fun j => x3 (ix1 j)) (fun h k => x5 (ix2 h k)) (fun j k => x6 (ix2 j k)) (fun k => x7 (ix1 k)) k := by
  refine (val_main_v36_apply x0 x1 x2 x3 x5 x6 x7 _).trans ?_
  have h5 : val_main_call0_v5 (F := Ideal) x0 x1 x2 x3 x5 x6 x7 (ix2 n k)
      = Ideal.logistic (val_main_v35 (F := Ideal) x0 x1 x2 x3 x5 x6 x7 (ix2 n k)) := by
    refine (val_main_call0_v5_apply x0 x1 x2 x3 x5 x6 x7 _).trans ?_
    rw [val_main_call0_v4_apply, val_main_call0_cst_0_apply, word_one]
    refine (congrArg (Ideal.div 1) ((val_main_call0_v3_apply x0 x1 x2 x3 x5 x6 x7 _).trans ?_))
    rw [val_main_call0_v2_apply, val_main_call0_cst_apply, word_one]
    rfl
  rw [h5, r_v35]
  rfl

/-- The second dense layer: 768 wide. -/
private theorem r_v40 (x0 : (⟨S100000x256, .f32⟩ : BufTy).Contents (Elt Ideal)) (x1 : (⟨S100000x3x256, .f32⟩ : BufTy).Contents (Elt Ideal)) (x2 x3 : (⟨S256, .f32⟩ : BufTy).Contents (Elt Ideal)) (x5 : (⟨S256x256, .f32⟩ : BufTy).Contents (Elt Ideal)) (x6 : (⟨S512x256, .f32⟩ : BufTy).Contents (Elt Ideal)) (x7 : (⟨S256, .f32⟩ : BufTy).Contents (Elt Ideal)) (x8 : (⟨S256x768, .f32⟩ : BufTy).Contents (Elt Ideal)) (x9 : (⟨S768, .f32⟩ : BufTy).Contents (Elt Ideal)) (n : Fin 100000) (q : Fin 768) :
    val_main_v40 (F := Ideal) x0 x1 x2 x3 x5 x6 x7 x8 x9 (ix2 n q)
      = Spec.ctx (fun j => x0 (ix2 n j)) (fun d h => x1 (ix3 n d h)) (fun j => x2 (ix1 j)) (fun j => x3 (ix1 j)) (fun h k => x5 (ix2 h k)) (fun j k => x6 (ix2 j k)) (fun k => x7 (ix1 k)) (fun k q => x8 (ix2 k q)) (fun q => x9 (ix1 q)) q := by
  refine (val_main_v40_apply x0 x1 x2 x3 x5 x6 x7 x8 x9 _).trans ?_
  rw [val_main_v37_apply, r_v39]
  unfold Spec.ctx
  refine congrArg (· + _) (Finset.sum_congr rfl fun j _ => ?_)
  have e1 : lidx_main_v37 (ix2 n q) j = ix2 n j := (funext fun a => by match a with | ⟨0, _⟩ => rfl | ⟨1, _⟩ => rfl)
  have e2 : ridx_main_v37 (ix2 n q) j = ix2 j q := (funext fun a => by match a with | ⟨0, _⟩ => rfl | ⟨1, _⟩ => rfl)
  rw [e1, e2, r_v36]

/-! ## The two results -/

/-- The reference's first result (the updated scalar features) is `Spec.Gs` of the argument arrays. -/
theorem ref_s (x0 : (⟨S100000x256, .f32⟩ : BufTy).Contents (Elt Ideal)) (x1 : (⟨S100000x3x256, .f32⟩ : BufTy).Contents (Elt Ideal)) (x2 x3 : (⟨S256, .f32⟩ : BufTy).Contents (Elt Ideal)) (x4 x5 : (⟨S256x256, .f32⟩ : BufTy).Contents (Elt Ideal)) (x6 : (⟨S512x256, .f32⟩ : BufTy).Contents (Elt Ideal)) (x7 : (⟨S256, .f32⟩ : BufTy).Contents (Elt Ideal)) (x8 : (⟨S256x768, .f32⟩ : BufTy).Contents (Elt Ideal)) (x9 : (⟨S768, .f32⟩ : BufTy).Contents (Elt Ideal)) :
    val_main_v48 (F := Ideal) x0 x1 x2 x3 x4 x5 x6 x7 x8 x9 = Cert.Spec.Gs x0 x1 x2 x3 x4 x5 x6 x7 x8 x9 := by
  funext i
  obtain ⟨n, k, rfl⟩ : ∃ (n : Fin 100000) (k : Fin 256), i = ix2 n k := ⟨i 0, i 1, eq_ix2 i⟩
  show (x0 (ix2 n k) + val_main_v41 (F := Ideal) x0 x1 x2 x3 x5 x6 x7 x8 x9 (ix2 n k))
      + val_main_v42 (F := Ideal) x0 x1 x2 x3 x5 x6 x7 x8 x9 (ix2 n k) * val_main_v45 (F := Ideal) x1 x4 x5 (ix2 n k) = _
  rw [val_main_v41_apply, val_main_v42_apply, r_v45]
  have e1 : idx_main_v41 (ix2 n k) = ix2 n (⟨k.val, by have := k.isLt; omega⟩ : Fin 768) := (funext fun a => by match a with | ⟨0, _⟩ => rfl | ⟨1, _⟩ => rfl)
  have e2 : idx_main_v42 (ix2 n k) = ix2 n (⟨k.val + 256, by have := k.isLt; omega⟩ : Fin 768) :=
    funext fun a => by
      match a with
      | ⟨0, _⟩ => rfl
      | ⟨1, _⟩ => exact Fin.ext (Nat.add_comm 256 k.val)
  rw [e1, e2, r_v40, r_v40]
  rfl

/-- The reference's second result (the updated vector features) is `Spec.Gv` of the argument arrays. -/
theorem ref_v (x0 : (⟨S100000x256, .f32⟩ : BufTy).Contents (Elt Ideal)) (x1 : (⟨S100000x3x256, .f32⟩ : BufTy).Contents (Elt Ideal)) (x2 x3 : (⟨S256, .f32⟩ : BufTy).Contents (Elt Ideal)) (x4 x5 : (⟨S256x256, .f32⟩ : BufTy).Contents (Elt Ideal)) (x6 : (⟨S512x256, .f32⟩ : BufTy).Contents (Elt Ideal)) (x7 : (⟨S256, .f32⟩ : BufTy).Contents (Elt Ideal)) (x8 : (⟨S256x768, .f32⟩ : BufTy).Contents (Elt Ideal)) (x9 : (⟨S768, .f32⟩ : BufTy).Contents (Elt Ideal)) :
    val_main_v52 (F := Ideal) x0 x1 x2 x3 x4 x5 x6 x7 x8 x9 = Cert.Spec.Gv x0 x1 x2 x3 x4 x5 x6 x7 x8 x9 := by
  funext i
  obtain ⟨n, d, k, rfl⟩ : ∃ (n : Fin 100000) (d : Fin 3) (k : Fin 256), i = ix3 n d k := ⟨i 0, i 1, i 2, eq_ix3 i⟩
  show x1 (ix3 n d k)
      + val_main_v50 (F := Ideal) x0 x1 x2 x3 x5 x6 x7 x8 x9 (ix3 n d k) * val_main_v0 (F := Ideal) x1 x4 (ix3 n d k) = _
  rw [val_main_v50_apply, val_main_v49_apply, val_main_v43_apply, r_v0]
  have e : idx_main_v43 (idx_main_v49 (idx_main_v50 (ix3 n d k))) = ix2 n (⟨k.val + 512, by have := k.isLt; omega⟩ : Fin 768) :=
    funext fun a => by
      match a with
      | ⟨0, _⟩ => rfl
      | ⟨1, _⟩ => exact Fin.ext (Nat.add_comm 512 k.val)
  rw [e, r_v40]
  rfl

end Cert.RefSide

end
-- ==== Proof.lean ====
/-
  The certificate: an equivariant message-passing update (layer norm of the scalar features, two H × H linear maps of the
  vector features, a two-layer SiLU network producing three gates, gated residual updates of both feature sets), computed
  by a kernel over 100 blocks of 1000 atoms with its matrix products on the matrix unit, against the same update written
  in plain array operations.

  On the extended reals both programs compute, atom by atom, the row functions of Proof/Spec.lean:
    * the kernel: each grid point's two output blocks are the specification's `sOut` / `vOut` of the block's rows
      (Proof/KerPieces.lean, Proof/KerDense.lean, Proof/KerBlock.lean), and the 100 blocks tile the result arrays
      (Proof/KerArrays.lean), so its results end at `Spec.Gs`, `Spec.Gv` of the arguments;
    * the reference: its two results, stage by stage, are the same two arrays (Proof/RefIsSpec.lean).
  No law beyond reading each operation at an index is needed: the two programs perform the same sums and products in the
  same grouping (a change of float format is the identity, a matrix-unit product into zero is the plain sum of products, a
  lane sum is the plain sum, the logistic function is the quotient 1 / (1 + e⁻ˣ) the reference spells out), so the
  precondition is never opened. The idealization rewrote nothing, so its conjunct is trivial; the two kernel programs'
  frames are the generated ones, the reference's is its generated run with the results dropped.
-/
import proofs.«180721_j88897233093049_1_alg».proof.Defs
import proofs.«180721_j88897233093049_1_alg».proof.Proof.Gen.Kernel
import proofs.«180721_j88897233093049_1_alg».proof.Proof.Gen.Kernel.Skeleton
import proofs.«180721_j88897233093049_1_alg».proof.Proof.Gen.Kernel.Launch
import proofs.«180721_j88897233093049_1_alg».proof.Proof.Gen.Kernel.Points
import proofs.«180721_j88897233093049_1_alg».proof.Proof.Gen.Kernel.Frame
import proofs.«180721_j88897233093049_1_alg».proof.Proof.Gen.KernelIdeal
import proofs.«180721_j88897233093049_1_alg».proof.Proof.Gen.KernelIdeal.Skeleton
import proofs.«180721_j88897233093049_1_alg».proof.Proof.Gen.KernelIdeal.Launch
import proofs.«180721_j88897233093049_1_alg».proof.Proof.Gen.KernelIdeal.Points
import proofs.«180721_j88897233093049_1_alg».proof.Proof.Gen.KernelIdeal.Frame
import proofs.«180721_j88897233093049_1_alg».proof.Proof.Gen.ReferenceIdeal
import proofs.«180721_j88897233093049_1_alg».proof.Proof.Gen.Pre_finite_inputs
import proofs.«180721_j88897233093049_1_alg».proof.Proof.Gen.KernelIdeal.Value
import proofs.«180721_j88897233093049_1_alg».proof.Proof.Gen.ReferenceIdeal.Run
import proofs.«180721_j88897233093049_1_alg».proof.Proof.Gen.ReferenceIdeal.Read
import proofs.«180721_j88897233093049_1_alg».proof.Proof.KerArrays
import proofs.«180721_j88897233093049_1_alg».proof.Proof.RefIsSpec
import Idealize.ShloMosaic.Adequacy
import Idealize.ShloMosaic.Init

noncomputable section

namespace Cert.Proof

open Idealize.ShloMosaic Idealize.SL.Sem

/-- The word-level kernel terminates without fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the ten arguments both idealized programs end with their two results at the
    specification's arrays of those arguments: the kernel by its blocks, the reference stage by stage. -/
theorem algebraic : Cert.algebraic_KernelIdeal_ReferenceIdeal := by
  intro m ρ m' ρ' _ hagree
  refine ⟨fun c => Cert.KerArrays.Gs m c, fun c => Cert.KerArrays.Gv m c, Cert.KerArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9⟩ := hagree c
    rw [Cert.ReferenceIdeal.Read.val_main_v48_eq, Cert.RefSide.ref_s, h0, h1, h2, h3, h4, h5, h6, h7, h8, h9]
  · obtain ⟨h0, h1, h2, h3, h4, h5, h6, h7, h8, h9⟩ := hagree c
    rw [Cert.ReferenceIdeal.Read.val_main_v52_eq, Cert.RefSide.ref_v, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
